-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S1x3072 : Shape := ⟨2, ![1, 3072]⟩
abbrev S4x2048x3072 : Shape := ⟨3, ![4, 2048, 3072]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x1024 : Shape := ⟨2, ![1, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S3072x1024, .bf16⟩
  | .hbm, ⟨7, _⟩ => ⟨S1024x1024, .bf16⟩
  | .hbm, ⟨8, _⟩ => ⟨S8192x3072, .bf16⟩
  | .hbm, ⟨9, _⟩ => ⟨S4x2048x3072, .bf16⟩
  | .hbm, ⟨10, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1024x1024, .bf16⟩
  | .local _ .vmem, ⟨13, _⟩ => ⟨S1024, .f32⟩
  | .local _ .vmem, ⟨14, _⟩ => ⟨S1x256x1024, .f32⟩
  | .local _ .vmem, ⟨15, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x1024_S8192x1024 : S4x2048x1024.ShapeCasts S8192x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  slices_S256x1024_o0_0_S256x128 : S256x1024.Slices ![0, 0] S256x128
  slices_S2048x1024_o0_0_S2048x128 : S2048x1024.Slices ![0, 0] S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  slices_S256x1024_o0_128_S256x128 : S256x1024.Slices ![0, 128] S256x128
  slices_S2048x1024_o0_128_S2048x128 : S2048x1024.Slices ![0, 128] S2048x128
  slices_S256x1024_o0_256_S256x128 : S256x1024.Slices ![0, 256] S256x128
  slices_S2048x1024_o0_256_S2048x128 : S2048x1024.Slices ![0, 256] S2048x128
  slices_S256x1024_o0_384_S256x128 : S256x1024.Slices ![0, 384] S256x128
  slices_S2048x1024_o0_384_S2048x128 : S2048x1024.Slices ![0, 384] S2048x128
  slices_S256x1024_o0_512_S256x128 : S256x1024.Slices ![0, 512] S256x128
  slices_S2048x1024_o0_512_S2048x128 : S2048x1024.Slices ![0, 512] S2048x128
  slices_S256x1024_o0_640_S256x128 : S256x1024.Slices ![0, 640] S256x128
  slices_S2048x1024_o0_640_S2048x128 : S2048x1024.Slices ![0, 640] S2048x128
  slices_S256x1024_o0_768_S256x128 : S256x1024.Slices ![0, 768] S256x128
  slices_S2048x1024_o0_768_S2048x128 : S2048x1024.Slices ![0, 768] S2048x128
  slices_S256x1024_o0_896_S256x128 : S256x1024.Slices ![0, 896] S256x128
  slices_S2048x1024_o0_896_S2048x128 : S2048x1024.Slices ![0, 896] S2048x128
  concatenates_S256x128_S256x128_S256x128_S256x128_S256x128_S256x128_S256x128_S256x128_S256x1024_d1 : Shape.Concatenates [S256x128, S256x128, S256x128, S256x128, S256x128, S256x128, S256x128, S256x128] S256x1024 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S1x256x1024 : S256x1024.ShapeCasts S1x256x1024
  dot_S512x1024_S3072x1024_S512x3072_1_1_0_0_n_n_wf : DotDims.WF S512x1024 S3072x1024 S512x3072 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x3072.size a
  hwx1_0 : ∀ i : grid1.Coords, EltTy.bits .bf16 = 32 ∨ (Rect.block (s := S4x2048x3072) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .bf16 = 32 ∨ (Rect.block (s := S4x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .bf16 = 32 ∨ (Rect.block (s := S4x2048x3072) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S4x2048x1024.size a
  hwx1_5 : ∀ i : grid1.Coords, EltTy.bits .f32 = 32 ∨ (Rect.block (s := S4x2048x1024) S1x256x1024.size (cc1_transform_5 i) (hinb1_5 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x16x64, .f32⟩
  | .hbm, ⟨15, _⟩ => ⟨S4x16x2048x64, .f32⟩
  | .hbm, ⟨16, _⟩ => ⟨S4x2048x16x64, .f32⟩
  | .hbm, ⟨17, _⟩ => ⟨S4x16x2048x64, .f32⟩
  | .hbm, ⟨18, _⟩ => ⟨S4x16x2048x2048, .f32⟩
  | .hbm, ⟨19, _⟩ => ⟨S_, .f32⟩
  | .hbm, ⟨20, _⟩ => ⟨S4x16x2048x2048, .f32⟩
  | .hbm, ⟨21, _⟩ => ⟨S4x16x2048x2048, .f32⟩
  | .hbm, ⟨22, _⟩ => ⟨S_, .f32⟩
  | .hbm, ⟨23, _⟩ => ⟨S4x16x2048, .f32⟩
  | .hbm, ⟨24, _⟩ => ⟨S_, .f32⟩
  | .hbm, ⟨25, _⟩ => ⟨S4x16x2048, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S4x16x2048x1, .f32⟩
  | .hbm, ⟨34, _⟩ => ⟨S4x16x2048x2048, .f32⟩
  | .hbm, ⟨35, _⟩ => ⟨S4x16x2048x2048, .f32⟩
  | .hbm, ⟨36, _⟩ => ⟨S4x16x2048x64, .f32⟩
  | .hbm, ⟨37, _⟩ => ⟨S4x2048x16x64, .f32⟩
  | .hbm, ⟨38, _⟩ => ⟨S4x2048x1024, .f32⟩
  | .hbm, ⟨39, _⟩ => ⟨S4x2048x1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.IdealRegion0.lean ====
/-
  The first pallas_call (the fused query/key/value projection) as one region of the program, at any entry
  contents `V` of the core's buffers: what each window's block is at a grid point, what the body leaves in the
  output window's buffer (the one store's value over the three loaded blocks), the body's triple, and the
  pipeline's proof data with its body obligation.  Generic in the float instance.
-/
import proofs.«429547_j52226802319567_3_alg».proof.Proof.Gen.KernelIdeal.Launch
import proofs.«429547_j52226802319567_3_alg».proof.Proof.Gen.KernelIdeal.Skeleton
import proofs.«429547_j52226802319567_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is
    not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's accesses: each buffer is read and written whole -/

abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S3072 := Rect.unit (s := S3072) ![0] S3072.size inb_S3072_S3072_0
abbrev r0_3 : Rect S512x3072 := Rect.unit (s := S512x3072) ![0, 0] S512x3072.size inb_S512x3072_S512x3072_0_0

/-- The output window's buffer after the body, from the three input blocks: its one store. -/
def out0_3 (x0 : Vec F S512x1024 .f32) (x1 : Vec F S3072x1024 .bf16) (x2 : Vec F S3072 .f32) : Vec F S512x3072 .bf16 :=
  View.canon [⟨r0_3, k0_pay1 (View.ld x0 r0_0) (View.ld x1 r0_1) (View.ld x2 r0_2)⟩]

/-- The store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body on whole staging memrefs: the inputs' buffers are read and kept, the output's ends at `out0_3`. -/
theorem sound_kernel0 (c : Dev nD) (E : Set ℕ) (i : grid0.Coords) (arg1 : Memref sig .tc .vmem S512x1024 .f32) (harg1 : arg1.IsWhole) (arg2 : Memref sig .tc .vmem S3072x1024 .bf16) (harg2 : arg2.IsWhole) (arg3 : Memref sig .tc .vmem S3072 .f32) (harg3 : arg3.IsWhole) (arg4 : Memref sig .tc .vmem S512x3072 .bf16) (harg4 : arg4.IsWhole)
    (x0 : Vec F S512x1024 .f32) (x1 : Vec F S3072x1024 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_linear_kernel i arg1 harg1 arg2 harg2 arg3 harg3 arg4 harg4) K := by
  simp only [cc0__qkv_linear_kernel_eq_skeleton]; unfold cc0__qkv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

section
variable (V : (c : Dev nD) → (b : Ref sig .tc) → Buf (Elt F) ((c : Thread nD τ).loc b))

/-- The proof data of the first pipeline on core `c`: the arrays as the region finds them; after the body at
    point `t` each input's buffer at its block and the output's at `out0_3` of the input blocks; the scoped rest and
    the generator register ride through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.IdealRegion1.lean ====
/-
  The second pallas_call (attention over all sixteen heads and the output projection, fused) as one region of the
  program, at any entry contents `V` of the core's buffers: the windows' blocks, the value the body stores as one
  function of the five loaded blocks, the body's triple, and the pipeline's proof data with its body obligation.
  Three input windows (queries, keys, values) read ONE array, the projected tokens, at different column blocks;
  each holds a third part of that array's read share.  Generic in the float instance.
-/
import proofs.«429547_j52226802319567_3_alg».proof.Proof.Gen.KernelIdeal.Launch
import proofs.«429547_j52226802319567_3_alg».proof.Proof.Gen.KernelIdeal.Skeleton
import proofs.«429547_j52226802319567_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's accesses: each buffer is read and written whole -/

abbrev r1_q : Rect S1x256x1024 := Rect.unit (s := S1x256x1024) ![0, 0, 0] S1x256x1024.size inb_S1x256x1024_S1x256x1024_0_0_0
abbrev r1_kv : Rect S1x2048x1024 := Rect.unit (s := S1x2048x1024) ![0, 0, 0] S1x2048x1024.size inb_S1x2048x1024_S1x2048x1024_0_0_0
abbrev r1_wo : Rect S1024x1024 := Rect.unit (s := S1024x1024) ![0, 0] S1024x1024.size inb_S1024x1024_S1024x1024_0_0
abbrev r1_bo : Rect S1024 := Rect.unit (s := S1024) ![0] S1024.size inb_S1024_S1024_0

/-- The value the body stores, as one function of the five loaded blocks: the query, key and value blocks cast to
    matrices, the eight head pairs' outputs (each from the values the pieces of the body hand one another), their
    concatenation, the output projection and its bias. -/
def body1 (v0 : Vec F S1x256x1024 .bf16) (v2 v4 : Vec F S1x2048x1024 .bf16) (v312 : Vec F S1024x1024 .bf16) (v315 : Vec F S1024 .f32) : FVec F S1x256x1024 .f32 :=
  have v1 := k1_pay1 v0
  have v3 := k1_pay2 v2
  have v5 := k1_pay3 v4
  have v25 := k1_pay7 v0 v2 v4
  have v28 := k1_pay8 v4
  have v36 := k1_pay9 v0 v2
  have v39 := k1_pay10 v0 v2
  have v43 := k1_pay11 v25 v28 v36 v39
  have v81 := k1_pay12 v1 v3 v5
  have v82 := k1_pay13 v1
  have v83 := k1_pay14 v3
  have v84 := k1_pay15 v5
  have v85 := k1_pay16 v1
  have v86 := k1_pay17 v3
  have v87 := k1_pay18 v5
  have cst_27 : FVec F S256x2048 .f32 := constant S256x2048 .f32 0x00000000#32
  have v119 := k1_pay19 v82 v83 v84 v85 v86 v87 cst_27
  have v120 := k1_pay20 v1
  have v121 := k1_pay21 v3
  have v122 := k1_pay22 v5
  have v125 := k1_pay23 v5
  have v133 := k1_pay24 v1 v3
  have v134 := k1_pay25 v1 v3
  have v157 := k1_pay26 v120 v121 v122 v125 v133 v134
  have v177 := k1_pay30 v1 v3 v5
  have v180 := k1_pay31 v5
  have v181 := k1_pay32 v1 v3
  have cst_53 : F .f32 := Scalar.ofBits .f32 0x3E000000#32
  have v195 := k1_pay33 v177 v180 v181 cst_53
  have v215 := k1_pay37 v1 v3 v5
  have v218 := k1_pay38 v5
  have v226 := k1_pay39 v1 v3
  have v229 := k1_pay40 v1 v3
  have v233 := k1_pay41 v215 v218 v226 v229
  have v271 := k1_pay42 v1 v3 v5
  have v272 := k1_pay43 v1
  have v273 := k1_pay44 v3
  have v274 := k1_pay45 v5
  have v275 := k1_pay46 v1
  have v276 := k1_pay47 v3
  have v277 := k1_pay48 v5
  have cst_77 : FVec F S256x2048 .f32 := constant S256x2048 .f32 0x00000000#32
  k1_pay49 v43 v81 v119 v157 v195 v233 v271 v272 v273 v274 v275 v276 v277 cst_77 v312 v315

/-- The output window's buffer after the body, from the five input blocks: its one store. -/
def out1_5 (x0 : Vec F S1x256x1024 .bf16) (x1 x2 : Vec F S1x2048x1024 .bf16) (x3 : Vec F S1024x1024 .bf16) (x4 : Vec F S1024 .f32) : Vec F S1x256x1024 .f32 :=
  View.canon [⟨r1_q, body1 (View.ld x0 r1_q) (View.ld x1 r1_kv) (View.ld x2 r1_kv) (View.ld x3 r1_wo) (View.ld x4 r1_bo)⟩]

/-- The store covers the buffer. -/
theorem cover1_5 (p0 : Vec F S1x256x1024 .f32) (y : S1x256x1024.Idx) :
    ∃ pc ∈ ([⟨r1_q, p0⟩] : List (View.Piece (Elt F) S1x256x1024 .f32)), y ∈ pc.1.set :=
  View.cover_of_tiled [⟨r1_q, p0⟩] S1x256x1024.size (by rfl) y

set_option maxHeartbeats 4000000 in
/-- The body on whole staging memrefs: the inputs' buffers are read and kept, the output's ends at `out1_5`. -/
theorem sound_kernel1 (c : Dev nD) (E : Set ℕ) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x256x1024 .f32) (harg7 : arg7.IsWhole)
    (x0 : Vec F S1x256x1024 .bf16) (x1 x2 : Vec F S1x2048x1024 .bf16) (x3 : Vec F S1024x1024 .bf16) (x4 : Vec F S1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4)) -∗ K ⟨⟩))
      ⊢ wp frame (wpE (defs₀ (F := F)) Variants.none c none) E (cc1__fused_attn_out_kernel i arg2 harg2 arg3 harg3 arg4 harg4 arg5 harg5 arg6 harg6 arg7 harg7) K := by
  simp only [cc1__fused_attn_out_kernel_eq_skeleton]; unfold cc1__fused_attn_out_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

section
variable (V : (c : Dev nD) → (b : Ref sig .tc) → Buf (Elt F) ((c : Thread nD τ).loc b))

/-- The three parts the projected-token array's read share is dealt in, one per window that reads it. -/
abbrev shareQ : PosShare TreeShare := fullShare.left.left
abbrev shareK : PosShare TreeShare := fullShare.left.right
abbrev shareV : PosShare TreeShare := fullShare.right

/-- The proof data of the second pipeline on core `c`: the arrays as the region finds them; after the body at
    point `t` each input's buffer at its block and the output's at `out1_5` of the input blocks; the scoped rest and
    the generator register ride through untouched; nothing owed; the query, key and value windows each hold their
    part of the one array's share, the other inputs theirs whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => shareQ
    | ⟨1, _⟩ => shareK
    | ⟨2, _⟩ => shareV
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.IdealRun.lean ====
/-
  The whole program as a run of four segments — the host operations before the projection kernel, the projection
  kernel's region, the reshape between the kernels, the attention kernel's region — from the launch to the return,
  with what every unscoped buffer holds at each boundary: a host stretch applies its operations; a region leaves its
  output array at what its write-backs fold to and every other buffer as it found it.  Every weakly fair execution
  terminates with each unscoped buffer at the last boundary's contents; in particular the five arguments end as
  launched and the result array is the attention region's output array.  Generic in the float instance.
  The attention region reads the projected-token array through three windows; at its entry that array's points-to is
  dealt in three read shares, one per window, and at its exit the three are joined again.
-/
import proofs.«429547_j52226802319567_3_alg».proof.Proof.IdealRegion0
import proofs.«429547_j52226802319567_3_alg».proof.Proof.IdealRegion1
import proofs.«429547_j52226802319567_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The projection region changes its output array only. -/
theorem W2_keeps (c : Dev nD) (b : Ref sig .tc) (hb : b ≠ main_v3) : W2 m ρ c (Proc.devRef .tc b) = W1 m ρ c (Proc.devRef .tc b) := by
  by_cases h : ∀ w, Pipeline.arrRef spec0 w ≠ b
  · exact W2_of_ne m ρ c b h
  · push Not at h
    obtain ⟨w, rfl⟩ := h
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact ((dat0 (V1 m ρ) c).arrAt_in 2 rfl _).trans (A_eq0 (V1 m ρ) c 2)
    | ⟨3, _⟩ => exact absurd rfl hb

/-- After the reshape between the kernels (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: its output array at what the pipeline leaves, every other buffer as entered. -/
def W4 (c : Dev nD) : Valuation τ sig (Elt F) :=
  Function.update (W3 m ρ c) (Proc.devRef .tc main_v5) ((dat1 (V3 m ρ) c).arrAt 5 cfg1.N)
theorem W4_main_v5 (c : Dev nD) : W4 m ρ c (Proc.devRef .tc main_v5) = (dat1 (V3 m ρ) c).arrAt 5 cfg1.N := by
  unfold W4; exact Function.update_self ..
theorem W4_of_ne (c : Dev nD) (b : Ref sig .tc) (hb : b ≠ main_v5) : W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_keeps m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_keeps m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_keeps m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_keeps m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_keeps m ρ c main_arg4 (by decide)
    _ = W0 m ρ c (Proc.devRef .tc main_arg4) := StableHlo.after_of_writes_sub hostOps0 _ hostOps0_writes (by decide)
    _ = m ((c : Thread nD τ).loc main_arg4) := rfl

/-! ## The attention region's arrays: one array behind three windows -/

section Shares
variable (V : (c : Dev nD) → (b : Ref sig .tc) → Buf (Elt F) ((c : Thread nD τ).loc b))

/-- A whole points-to dealt in the three read shares, and joined again. -/
theorem deal3 {ℓ : Loc nD τ sig} (f : Buf (Elt F) ℓ) :
    (ℓ ↦{fullShare} f : sProp 𝕄) ⊢ iprop((ℓ ↦{shareQ} f) ∗ (ℓ ↦{shareK} f) ∗ (ℓ ↦{shareV} f)) := by
  iintro H
  ihave H' := (pointsTo_share (PosShare.mem_left_op_right fullShare)).1 $$ H
  icases H' with ⟨HL, HR⟩
  ihave HL' := (pointsTo_share (PosShare.mem_left_op_right fullShare.left)).1 $$ HL
  icases HL' with ⟨HLL, HLR⟩
  isplitl [HLL]; · iexact HLL
  isplitl [HLR]; · iexact HLR
  iexact HR

theorem join3 {ℓ : Loc nD τ sig} (f : Buf (Elt F) ℓ) :
    iprop((ℓ ↦{shareQ} f) ∗ (ℓ ↦{shareK} f) ∗ (ℓ ↦{shareV} f)) ⊢ (ℓ ↦{fullShare} f : sProp 𝕄) := by
  iintro ⟨HLL, HLR, HR⟩
  iapply (pointsTo_share (PosShare.mem_left_op_right fullShare)).2
  isplitl [HLL HLR]
  · iapply (pointsTo_share (PosShare.mem_left_op_right fullShare.left)).2
    isplitl [HLL]; · iexact HLL
    iexact HLR
  iexact HR

/-- The attention pipeline's arrays, window by window: the three windows on the projected tokens at their
    shares, the output weights, the output bias and the output array whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v4) ↦{shareQ} G 0) ∗ (((c : Thread nD τ).loc main_v4) ↦{shareK} G 1) ∗ (((c : Thread nD τ).loc main_v4) ↦{shareV} G 2)
          ∗ (((c : Thread nD τ).loc main_v2) ↦{fullShare} G 3) ∗ (((c : Thread nD τ).loc main_arg4) ↦{fullShare} G 4) ∗ (((c : Thread nD τ).loc main_v5) ↦{fullShare} G 5)) := by
  unfold Pipeline.Dat.arrays
  rw [bigSep_W1, (arr_whole1 0).set_eq_univ, (arr_whole1 3).set_eq_univ, (arr_whole1 4).set_eq_univ, (arr_whole1 5).set_eq_univ]
  rfl

/-- The distinct buffers behind those arrays, each whole. -/
theorem arrBufs1_eq (c : Dev nD) (X : (b : Ref sig .tc) → Buf (Elt F) ((c : Thread nD τ).loc b)) :
    (Pipeline.arrBufs spec1 c X : sProp 𝕄)
      = iprop((((c : Thread nD τ).loc main_v4) ↦{fullShare} X main_v4) ∗ (((c : Thread nD τ).loc main_v2) ↦{fullShare} X main_v2)
          ∗ (((c : Thread nD τ).loc main_arg4) ↦{fullShare} X main_arg4) ∗ (((c : Thread nD τ).loc main_v5) ↦{fullShare} X main_v5)) := by
  unfold Pipeline.arrBufs
  exact bigSep_eq_bigSepL_of_eq [main_v4, main_v2, main_arg4, main_v5] (by decide) (by decide) _

end Shares

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. Its arrays split out of the
    unscoped buffers and put back at the exit contents; the generator register into the invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- ENTRY of the attention region, the arrays' part: the core's unscoped buffers at `V3` are the pipeline's arrays at
    their entry contents — the projected tokens dealt in three read shares — and the unscoped rest. -/
theorem entry1 (c : Dev nD) :
    (unscopedBufs c (V3 m ρ c) : sProp 𝕄)
      ⊢ iprop((pdats m ρ 1 c).arrays ((pdats m ρ 1 c).arrAt · 0) ∗ Pipeline.unscopedRest spec1 c (V3 m ρ c)) := by
  have h1 : (unscopedBufs c (V3 m ρ c) : sProp 𝕄)
      = iprop(Pipeline.arrBufs spec1 c (V3 m ρ c) ∗ Pipeline.unscopedRest spec1 c (V3 m ρ c)) :=
    Pipeline.unscopedBufs_split₀ (Pipeline.pin (pcfgs (F := F)) adm) 1 winFacts₀1.arr_unscoped c (V3 m ρ c)
  rw [h1, arrBufs1_eq, show (pdats m ρ 1 c) = dat1 (V3 m ρ) c from rfl, arrays1_eq]
  iintro ⟨⟨H4, H2, Ha, H5⟩, Hr⟩
  ihave H4' := (deal3 (F := F) _) $$ H4
  icases H4' with ⟨Hq, Hk, Hv⟩
  isplitr [Hr]
  swap; · iexact Hr
  isplitl [Hq]; · iexact Hq
  isplitl [Hk]; · iexact Hk
  isplitl [Hv]; · iexact Hv
  isplitl [H2]; · iexact H2
  isplitl [Ha]; · iexact Ha
  iexact H5

/-- EXIT of the attention region, the arrays' part: the three read shares joined, the arrays at their final contents and
    the unscoped rest are the core's unscoped buffers at `V4`. -/
theorem exit1 (c : Dev nD) :
    iprop((pdats m ρ 1 c).arrays ((pdats m ρ 1 c).arrAt · cfg1.N) ∗ Pipeline.unscopedRest spec1 c (V3 m ρ c))
      ⊢ (unscopedBufs c (V4 m ρ c) : sProp 𝕄) := by
  have h1 : (unscopedBufs c (V4 m ρ c) : sProp 𝕄)
      = iprop(Pipeline.arrBufs spec1 c (V4 m ρ c) ∗ Pipeline.unscopedRest spec1 c (V4 m ρ c)) :=
    Pipeline.unscopedBufs_split₀ (Pipeline.pin (pcfgs (F := F)) adm) 1 winFacts₀1.arr_unscoped c (V4 m ρ c)
  have hrest : (Pipeline.unscopedRest spec1 c (V4 m ρ c) : sProp 𝕄) = Pipeline.unscopedRest spec1 c (V3 m ρ c) := by
    unfold Pipeline.unscopedRest
    exact bigSep_congr fun b hb => by
      rw [show V4 m ρ c b = V3 m ρ c b from W4_of_ne m ρ c b fun e =>
        (Finset.mem_sdiff.mp hb).2 (e ▸ Finset.mem_image.mpr ⟨5, Finset.mem_univ _, rfl⟩)]
  rw [h1, hrest, arrBufs1_eq, show (pdats m ρ 1 c) = dat1 (V3 m ρ) c from rfl, arrays1_eq,
    (dat1 (V3 m ρ) c).arrAt_in 0 rfl, (dat1 (V3 m ρ) c).arrAt_in 1 rfl, (dat1 (V3 m ρ) c).arrAt_in 2 rfl,
    (dat1 (V3 m ρ) c).arrAt_in 3 rfl, (dat1 (V3 m ρ) c).arrAt_in 4 rfl,
    show V4 m ρ c main_v4 = V3 m ρ c main_v4 from W4_of_ne m ρ c main_v4 (by decide),
    show V4 m ρ c main_v2 = V3 m ρ c main_v2 from W4_of_ne m ρ c main_v2 (by decide),
    show V4 m ρ c main_arg4 = V3 m ρ c main_arg4 from W4_of_ne m ρ c main_arg4 (by decide),
    show V4 m ρ c main_v5 = (dat1 (V3 m ρ) c).arrAt 5 cfg1.N from W4_main_v5 m ρ c]
  iintro ⟨⟨Hq, Hk, Hv, H2, Ha, H5⟩, Hr⟩
  isplitr [Hr]
  swap; · iexact Hr
  isplitl [Hq Hk Hv]
  · iapply (join3 (F := F) _)
    isplitl [Hq]; · iexact Hq
    isplitl [Hk]; · iexact Hk
    iexact Hv
  isplitl [H2]; · iexact H2
  isplitl [Ha]; · iexact Ha
  iexact H5

set_option backward.isDefEq.respectTransparency.types false in
/-- The attention region: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has each unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every weakly fair execution terminates, nothing faulting, with the five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

/-- THE RUN WITH THE RESULT NAMED: besides, the result array ends at the attention region's output array. -/
theorem run_result : θ_run defs (onTc (τ := τ) (main (F := F))) ⟨m, fun _ => 0, ρ⟩ (fun r => ∀ c : Dev nD,
      r.2.mem ((c.tc : Thread nD τ).loc main_v5) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (W4_main_v5 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

end Cert.KernelIdeal.Hand

end
-- ==== Proof.Spec.lean ====
/-
  Multi-head self-attention with an output projection, as one function of the five argument arrays, entry by
  entry over the extended reals.  Tokens are rows (b, s); the fused projection gives every token 3072 numbers:
  the first 1024 are its queries, the next 1024 its keys, the last 1024 its values, and within each third the
  sixteen heads are consecutive runs of 64 columns.  A head's score of query row s against key row k is the inner
  product of the two 64-runs times 1/8; a row of scores becomes weights by subtracting the row's maximum, taking the
  exponential and dividing by the row's sum; the weights average the value rows; the averaged row goes through the
  output projection.  Everything after the projection is first stated over ANY table `p` of projected tokens
  (`scoreP` … `outP`), so that a program that materialises the projected tokens as an array of its own can be read
  against the same functions.
-/
import Idealize.ShloMosaic.PureOps.Ideal
import Idealize.ShloMosaic.Lib.ValueIdx

noncomputable section

open scoped BigOperators

namespace Cert.Mha

open Idealize.ShloMosaic Idealize.ShloMosaic.ValueIdx

/-- The shapes of the five arguments, of the tokens as one flat list of rows, and of the projected tokens. -/
abbrev Sx : Shape := ⟨3, ![4, 2048, 1024]⟩
abbrev Swq : Shape := ⟨2, ![3072, 1024]⟩
abbrev Sbq : Shape := ⟨1, ![3072]⟩
abbrev Swo : Shape := ⟨2, ![1024, 1024]⟩
abbrev Sbo : Shape := ⟨1, ![1024]⟩
abbrev Sxf : Shape := ⟨2, ![8192, 1024]⟩
abbrev Spf : Shape := ⟨2, ![8192, 3072]⟩
abbrev Sp : Shape := ⟨3, ![4, 2048, 3072]⟩

/-- Column of head `h`'s `d`-th query number among a token's 3072. -/
def qcol (h : Fin 16) (d : Fin 64) : Fin 3072 := ⟨h.val * 64 + d.val, by omega⟩
/-- Column of head `h`'s `d`-th key number. -/
def kcol (h : Fin 16) (d : Fin 64) : Fin 3072 := ⟨1024 + (h.val * 64 + d.val), by omega⟩
/-- Column of the value number that feeds attention column `e`. -/
def vcol (e : Fin 1024) : Fin 3072 := ⟨2048 + e.val, by omega⟩
/-- The head an attention column belongs to. -/
def headOf (e : Fin 1024) : Fin 16 := ⟨e.val / 64, by omega⟩

/-- 1/8 as the float word the programs carry, and minus infinity likewise. -/
abbrev eighth : EReal := Ideal.ofBits .f32 0x3E000000#32
abbrev negInf : EReal := Ideal.ofBits .f32 0xFF800000#32

/-! ## Attention for a tile of query rows

`n` query rows `Q` (1024 numbers each, sixteen heads of 64), 2048 key rows `K` and value rows `Vv`. -/

/-- Column of head `h`'s `d`-th number within a 1024-wide third. -/
def hcol (h : Fin 16) (d : Fin 64) : Fin 1024 := ⟨h.val * 64 + d.val, by omega⟩

section
variable {n : Nat} (Q : Fin n → Fin 1024 → EReal) (K Vv : Fin 2048 → Fin 1024 → EReal) (wo : Swo.Idx → EReal) (bo : Sbo.Idx → EReal)

/-- Head `h`'s scaled score of query row `r` against key row `k`. -/
def scoreT (h : Fin 16) (r : Fin n) (k : Fin 2048) : EReal :=
  (∑ d : Fin 64, Q r (hcol h d) * K k (hcol h d)) * eighth

/-- The largest score of a query row, as a fold of `max` from minus infinity. -/
def rowMaxT (h : Fin 16) (r : Fin n) : EReal :=
  (Finset.univ : Finset (Fin 2048)).fold max negInf (fun k => scoreT Q K h r k)

/-- The unnormalised weight of key row `k`. -/
def weightT (h : Fin 16) (r : Fin n) (k : Fin 2048) : EReal :=
  Ideal.exp (scoreT Q K h r k - rowMaxT Q K h r)

/-- The softmax weight of key row `k`. -/
def probT (h : Fin 16) (r : Fin n) (k : Fin 2048) : EReal :=
  Ideal.div (weightT Q K h r k) (∑ k' : Fin 2048, weightT Q K h r k')

/-- Attention column `e` of query row `r`: the weighted average of the value rows. -/
def attnT (r : Fin n) (e : Fin 1024) : EReal :=
  ∑ k : Fin 2048, probT Q K (headOf e) r k * Vv k e

/-- Output number `f` of query row `r`. -/
def outT (r : Fin n) (f : Fin 1024) : EReal :=
  (∑ e : Fin 1024, attnT Q K Vv r e * wo (ix2 f e)) + bo (ix1 f)

/-- A tile's rows are computed as they would be among all rows: only row `r` of `Q` is read. -/
theorem outT_rows {n' : Nat} (g : Fin n → Fin n') (Q' : Fin n' → Fin 1024 → EReal) (r : Fin n) (f : Fin 1024) :
    outT (fun r c => Q' (g r) c) K Vv wo bo r f = outT Q' K Vv wo bo (g r) f := rfl

end

/-! ## Attention over a table of projected tokens

The query, key and value thirds of a token's 3072 numbers, as 1024-wide rows. -/

/-- Batch `b`'s query, key and value rows out of a table of projected tokens. -/
def qRows (p : Fin 4 → Fin 2048 → Fin 3072 → EReal) (b : Fin 4) : Fin 2048 → Fin 1024 → EReal := fun s c => p b s ⟨c.val, by omega⟩
def kRows (p : Fin 4 → Fin 2048 → Fin 3072 → EReal) (b : Fin 4) : Fin 2048 → Fin 1024 → EReal := fun s c => p b s ⟨1024 + c.val, by omega⟩
def vRows (p : Fin 4 → Fin 2048 → Fin 3072 → EReal) (b : Fin 4) : Fin 2048 → Fin 1024 → EReal := fun s c => p b s ⟨2048 + c.val, by omega⟩

section
variable (p : Fin 4 → Fin 2048 → Fin 3072 → EReal) (wo : Swo.Idx → EReal) (bo : Sbo.Idx → EReal)

/-- Head `h`'s scaled score of query row `s` against key row `k`. -/
def scoreP (b : Fin 4) (h : Fin 16) (s k : Fin 2048) : EReal := scoreT (qRows p b) (kRows p b) h s k

/-- The largest score of a query row, as a fold of `max` from minus infinity. -/
def rowMaxP (b : Fin 4) (h : Fin 16) (s : Fin 2048) : EReal := rowMaxT (qRows p b) (kRows p b) h s

/-- The unnormalised weight of key row `k`. -/
def weightP (b : Fin 4) (h : Fin 16) (s k : Fin 2048) : EReal := weightT (qRows p b) (kRows p b) h s k

/-- The softmax weight of key row `k`. -/
def probP (b : Fin 4) (h : Fin 16) (s k : Fin 2048) : EReal := probT (qRows p b) (kRows p b) h s k

/-- Attention column `e` of token (b, s): the weighted average of the value rows. -/
def attnP (b : Fin 4) (s : Fin 2048) (e : Fin 1024) : EReal := attnT (qRows p b) (kRows p b) (vRows p b) s e

/-- Output number `f` of token (b, s). -/
def outP (b : Fin 4) (s : Fin 2048) (f : Fin 1024) : EReal := outT (qRows p b) (kRows p b) (vRows p b) wo bo s f

end

/-! ## From the five arguments -/

section
variable (x : Sx.Idx → EReal) (w : Swq.Idx → EReal) (bq : Sbq.Idx → EReal) (wo : Swo.Idx → EReal) (bo : Sbo.Idx → EReal)

/-- The fused projection: number `f` of token (b, s). -/
def proj (b : Fin 4) (s : Fin 2048) (f : Fin 3072) : EReal :=
  (∑ e : Fin 1024, x (ix3 b s e) * w (ix2 f e)) + bq (ix1 f)

def score (b : Fin 4) (h : Fin 16) (s k : Fin 2048) : EReal := scoreP (proj x w bq) b h s k
def rowMax (b : Fin 4) (h : Fin 16) (s : Fin 2048) : EReal := rowMaxP (proj x w bq) b h s
def weight (b : Fin 4) (h : Fin 16) (s k : Fin 2048) : EReal := weightP (proj x w bq) b h s k
def prob (b : Fin 4) (h : Fin 16) (s k : Fin 2048) : EReal := probP (proj x w bq) b h s k
def attn (b : Fin 4) (s : Fin 2048) (e : Fin 1024) : EReal := attnP (proj x w bq) b s e
def out (b : Fin 4) (s : Fin 2048) (f : Fin 1024) : EReal := outP (proj x w bq) wo bo b s f

theorem score_eq (b : Fin 4) (h : Fin 16) (s k : Fin 2048) : score x w bq b h s k
    = (∑ d : Fin 64, proj x w bq b s (qcol h d) * proj x w bq b k (kcol h d)) * eighth := rfl
theorem rowMax_eq (b : Fin 4) (h : Fin 16) (s : Fin 2048) : rowMax x w bq b h s
    = (Finset.univ : Finset (Fin 2048)).fold max negInf (fun k => score x w bq b h s k) := rfl
theorem weight_eq (b : Fin 4) (h : Fin 16) (s k : Fin 2048) : weight x w bq b h s k
    = Ideal.exp (score x w bq b h s k - rowMax x w bq b h s) := rfl
theorem prob_eq (b : Fin 4) (h : Fin 16) (s k : Fin 2048) : prob x w bq b h s k
    = Ideal.div (weight x w bq b h s k) (∑ k' : Fin 2048, weight x w bq b h s k') := rfl
theorem attn_eq (b : Fin 4) (s : Fin 2048) (e : Fin 1024) : attn x w bq b s e
    = ∑ k : Fin 2048, prob x w bq b (headOf e) s k * proj x w bq b k (vcol e) := rfl
theorem out_eq (b : Fin 4) (s : Fin 2048) (f : Fin 1024) : out x w bq wo bo b s f
    = (∑ e : Fin 1024, attn x w bq b s e * wo (ix2 f e)) + bo (ix1 f) := rfl

/-- The whole result array. -/
def G : Sx.Idx → EReal := fun i => out x w bq wo bo (i 0) (i 1) (i 2)

theorem G_ix3 (b : Fin 4) (s : Fin 2048) (f : Fin 1024) : G x w bq wo bo (ix3 b s f) = out x w bq wo bo b s f := rfl

end

/-! ## The two stages a program may materialise -/

/-- The projected tokens over the flat list of 8192 token rows. -/
def projFlat (xf : Sxf.Idx → EReal) (w : Swq.Idx → EReal) (bq : Sbq.Idx → EReal) : Spf.Idx → EReal :=
  fun i => (∑ e : Fin 1024, xf (ix2 (i 0) e) * w (ix2 (i 1) e)) + bq (ix1 (i 1))

/-- Attention and the output projection from an ARRAY of projected tokens. -/
def attnOut (qkv : Sp.Idx → EReal) (wo : Swo.Idx → EReal) (bo : Sbo.Idx → EReal) : Sx.Idx → EReal :=
  fun i => outP (fun b s f => qkv (ix3 b s f)) wo bo (i 0) (i 1) (i 2)

theorem attnOut_ix3 (qkv : Sp.Idx → EReal) (wo : Swo.Idx → EReal) (bo : Sbo.Idx → EReal) (b : Fin 4) (s : Fin 2048) (f : Fin 1024) :
    attnOut qkv wo bo (ix3 b s f) = outP (fun b s f => qkv (ix3 b s f)) wo bo b s f := rfl

/-- The whole function is the second stage applied to the first. -/
theorem G_eq_attnOut (x : Sx.Idx → EReal) (w : Swq.Idx → EReal) (bq : Sbq.Idx → EReal) (wo : Swo.Idx → EReal) (bo : Sbo.Idx → EReal) :
    G x w bq wo bo = attnOut (fun j => proj x w bq (j 0) (j 1) (j 2)) wo bo := rfl

end Cert.Mha

end
-- ==== Proof.RefIsSpec.lean ====
/-
  The reference program's result, read at the ideal instance, is the specification function: the fused projection,
  the per-head scaled scores, the row maximum, the exponential weights and their normalisation, the weighted average of
  the value rows and the output projection, each stage identified index by index with the specification's formula.
-/
import proofs.«429547_j52226802319567_3_alg».proof.Proof.Gen.ReferenceIdeal.Read
import proofs.«429547_j52226802319567_3_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Idealize.ShloMosaic Idealize.ShloMosaic.ValueIdx

variable (x0 : (⟨S4x2048x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-! ## The fused projection -/

/-- Number `f` of token (b, s) of the fused projection: the row of `x` against row `f` of the weights, plus the bias. -/
theorem proj_at (b : Fin 4) (s : Fin 2048) (f : Fin 3072) :
    Read.val_main_v3 (F := Ideal) x0 x1 x2 (ix3 b s f) = Cert.Mha.proj x0 x1 x2 b s f := by
  rw [Read.val_main_v3_apply, Read.val_main_v0_apply, Read.val_main_v2_apply, Read.val_main_v1_apply]
  simp only [Ideal.addf_def]
  unfold Cert.Mha.proj
  have el : ∀ k : Fin 1024, Read.lidx_main_v0 (ix3 b s f) k = ix3 b s k := fun k => funext fun a => by
    match a with | ⟨0, _⟩ => rfl | ⟨1, _⟩ => rfl | ⟨2, _⟩ => rfl
  have er : ∀ k : Fin 1024, Read.ridx_main_v0 (ix3 b s f) k = ix2 f k := fun k => funext fun a => by
    match a with | ⟨0, _⟩ => rfl | ⟨1, _⟩ => rfl
  have eb : Read.idx_main_v1 (Read.idx_main_v2 (ix3 b s f)) = ix1 f := funext fun a => by
    match a with | ⟨0, _⟩ => rfl
  rw [eb]
  refine congrArg (· + x2 (ix1 f)) (Finset.sum_congr rfl fun k _ => ?_)
  rw [el, er]

/-! ## Queries, keys and values per head -/

/-- Column `h * 64 + d` of a 1024-wide third. -/
def col (h : Fin 16) (d : Fin 64) : Fin 1024 := ⟨h.val * 64 + d.val, by omega⟩

/-- Splitting the 1024 columns of a token into 16 runs of 64 and putting the head axis before the row axis reads
    column `h * 64 + d` of row (b, s). -/
theorem split_idx (b : Fin 4) (h : Fin 16) (s : Fin 2048) (d : Fin 64) :
    Read.idx_main_v7 (Read.idx_main_v8 (ix4 b h s d)) = ix3 b s (col h d) := funext fun a => Fin.ext (by
  have hb := b.isLt; have hh := h.isLt; have hs := s.isLt; have hd := d.isLt
  match a with
  | ⟨0, _⟩ => show ((((b.val * 2048 + s.val) * 16 + h.val) * 64 + d.val) / 2097152 = b.val); omega
  | ⟨1, _⟩ => show ((((b.val * 2048 + s.val) * 16 + h.val) * 64 + d.val) / 1024 % 2048 = s.val); omega
  | ⟨2, _⟩ => show ((((b.val * 2048 + s.val) * 16 + h.val) * 64 + d.val) % 1024 = h.val * 64 + d.val); omega)

/-- Head `h`'s `d`-th query number of token (b, s). -/
theorem query_at (b : Fin 4) (h : Fin 16) (s : Fin 2048) (d : Fin 64) :
    Read.val_main_v8 (F := Ideal) x0 x1 x2 (ix4 b h s d) = Cert.Mha.proj x0 x1 x2 b s (Cert.Mha.qcol h d) := by
  rw [Read.val_main_v8_apply, Read.val_main_v7_apply, split_idx, Read.val_main_v4_apply, ← proj_at]
  exact congrArg _ (funext fun a => by match a with | ⟨0, _⟩ => rfl | ⟨1, _⟩ => rfl | ⟨2, _⟩ => rfl)

/-- Head `h`'s `d`-th key number of token (b, s). -/
theorem key_at (b : Fin 4) (h : Fin 16) (s : Fin 2048) (d : Fin 64) :
    Read.val_main_v10 (F := Ideal) x0 x1 x2 (ix4 b h s d) = Cert.Mha.proj x0 x1 x2 b s (Cert.Mha.kcol h d) := by
  rw [Read.val_main_v10_apply, Read.val_main_v9_apply,
    show Read.idx_main_v9 (Read.idx_main_v10 (ix4 b h s d)) = ix3 b s (col h d) from split_idx b h s d,
    Read.val_main_v5_apply, ← proj_at]
  exact congrArg _ (funext fun a => by match a with | ⟨0, _⟩ => rfl | ⟨1, _⟩ => rfl | ⟨2, _⟩ => rfl)

/-- Head `h`'s `d`-th value number of token (b, s). -/
theorem value_at (b : Fin 4) (h : Fin 16) (s : Fin 2048) (d : Fin 64) :
    Read.val_main_v12 (F := Ideal) x0 x1 x2 (ix4 b h s d) = Cert.Mha.proj x0 x1 x2 b s (Cert.Mha.vcol (col h d)) := by
  rw [Read.val_main_v12_apply, Read.val_main_v11_apply,
    show Read.idx_main_v11 (Read.idx_main_v12 (ix4 b h s d)) = ix3 b s (col h d) from split_idx b h s d,
    Read.val_main_v6_apply, ← proj_at]
  exact congrArg _ (funext fun a => by match a with | ⟨0, _⟩ => rfl | ⟨1, _⟩ => rfl | ⟨2, _⟩ => rfl)

/-! ## Scores and the row maximum -/

/-- Head `h`'s scaled score of query row `s` against key row `k`. -/
theorem score_at (b : Fin 4) (h : Fin 16) (s k : Fin 2048) :
    Read.val_main_v15 (F := Ideal) x0 x1 x2 (ix4 b h s k) = Cert.Mha.score x0 x1 x2 b h s k := by
  rw [Read.val_main_v15_apply, Read.val_main_v13_apply, Read.val_main_v14_apply, Read.val_main_cst_apply]
  simp only [Ideal.mulf_def, Ideal.ofBits_def]
  rw [Cert.Mha.score_eq]
  have el : ∀ d : Fin 64, Read.lidx_main_v13 (ix4 b h s k) d = ix4 b h s d := fun d => funext fun a => by
    match a with | ⟨0, _⟩ => rfl | ⟨1, _⟩ => rfl | ⟨2, _⟩ => rfl | ⟨3, _⟩ => rfl
  have er : ∀ d : Fin 64, Read.ridx_main_v13 (ix4 b h s k) d = ix4 b h k d := fun d => funext fun a => by
    match a with | ⟨0, _⟩ => rfl | ⟨1, _⟩ => rfl | ⟨2, _⟩ => rfl | ⟨3, _⟩ => rfl
  refine congrArg (· * Cert.Mha.eighth) (Finset.sum_congr rfl fun d _ => ?_)
  rw [el, er, query_at, key_at]

/-- Minus infinity is the least extended real: a maximum with it is the other operand. -/
theorem max_negInf (y : EReal) : max (Ideal.ofBits .f32 0xFF800000#32) y = y := by
  simp [Ideal.ofBits, Ideal.ieee]

/-- The shape fact the fold over the key axis is stated through. -/
theorem reduces_keys : S4x16x2048x2048.Reduces [3] S4x16x2048 := by decide

/-- Row (b, h, s) with key coordinate `k` put back on the last axis. -/
theorem lift_keys (b : Fin 4) (h : Fin 16) (s : Fin 2048) (k : Fin (S4x16x2048x2048.size 3)) :
    reduces_keys.lift (ix3 b h s) k = ix4 b h s (⟨k.val, k.isLt⟩ : Fin 2048) := by
  funext c; apply Fin.ext
  fin_cases c <;> rfl

/-- The largest score of query row `s` of head `h`: the reduce over the key axis, and the extra maximum with minus
    infinity changes nothing. -/
theorem rowMax_at (b : Fin 4) (h : Fin 16) (s : Fin 2048) :
    Read.val_main_v18 (F := Ideal) x0 x1 x2 (ix3 b h s) = Cert.Mha.rowMax x0 x1 x2 b h s := by
  rw [Read.val_main_v18_apply, Read.val_main_v17_apply, Read.val_main_cst_1_apply]
  simp only [Ideal.maximumf_def, Ideal.ofBits_def]
  rw [max_negInf]
  unfold Read.val_main_v16
  rw [Host.reduce_eq_fold_single FloatOps.maximumf _ _ _ reduces_keys]
  rw [Cert.Mha.rowMax_eq]
  have hf : (Read.val_main_v15 (F := Ideal) x0 x1 x2 ∘ reduces_keys.lift (ix3 b h s))
      = fun k : Fin 2048 => Cert.Mha.score x0 x1 x2 b h s k := funext fun k => by
    show Read.val_main_v15 (F := Ideal) x0 x1 x2 (reduces_keys.lift (ix3 b h s) k) = _
    rw [lift_keys, score_at]
    rfl
  rw [hf]
  rfl

/-! ## Weights, their sum, and the softmax -/

/-- The unnormalised weight of key row `k`: the exponential of the score less the row's maximum. -/
theorem weight_at (b : Fin 4) (h : Fin 16) (s k : Fin 2048) :
    Read.val_main_v22 (F := Ideal) x0 x1 x2 (ix4 b h s k) = Cert.Mha.weight x0 x1 x2 b h s k := by
  rw [Read.val_main_v22_apply, Read.val_main_v21_apply, Read.val_main_v20_apply, Read.val_main_v19_apply]
  simp only [Ideal.subf_def, Ideal.hostUnary_exp_def]
  have e : Read.idx_main_v19 (Read.idx_main_v20 (ix4 b h s k)) = ix3 b h s := funext fun a => by
    match a with | ⟨0, _⟩ => rfl | ⟨1, _⟩ => rfl | ⟨2, _⟩ => rfl
  rw [e, score_at, rowMax_at, Cert.Mha.weight_eq]

/-- The sum of a row's weights: the float sum starts from the zero word. -/
theorem weightSum_at (b : Fin 4) (h : Fin 16) (s : Fin 2048) :
    Read.val_main_v23 (F := Ideal) x0 x1 x2 (ix3 b h s) = ∑ k : Fin 2048, Cert.Mha.weight x0 x1 x2 b h s k := by
  rw [Read.val_main_v23_apply, Read.val_main_cst_2_apply]
  simp only [Ideal.ofBits_def, Ideal.ofBits_zero_f32, zero_add]
  refine Finset.sum_congr rfl fun k _ => ?_
  rw [← weight_at]
  exact congrArg _ (funext fun a => by match a with | ⟨0, _⟩ => rfl | ⟨1, _⟩ => rfl | ⟨2, _⟩ => rfl | ⟨3, _⟩ => rfl)

/-- The softmax weight of key row `k`. -/
theorem prob_at (b : Fin 4) (h : Fin 16) (s k : Fin 2048) :
    Read.val_main_v26 (F := Ideal) x0 x1 x2 (ix4 b h s k) = Cert.Mha.prob x0 x1 x2 b h s k := by
  rw [Read.val_main_v26_apply, Read.val_main_v25_apply, Read.val_main_v24_apply]
  simp only [Ideal.hostDivf_def]
  have e : Read.idx_main_v24 (Read.idx_main_v25 (ix4 b h s k)) = ix3 b h s := funext fun a => by
    match a with | ⟨0, _⟩ => rfl | ⟨1, _⟩ => rfl | ⟨2, _⟩ => rfl
  rw [e, weight_at, weightSum_at, Cert.Mha.prob_eq]

/-! ## The weighted average of the value rows -/

/-- Head `h`'s `d`-th attention number of token (b, s). -/
theorem headAttn_at (b : Fin 4) (h : Fin 16) (s : Fin 2048) (d : Fin 64) :
    Read.val_main_v27 (F := Ideal) x0 x1 x2 (ix4 b h s d)
      = ∑ k : Fin 2048, Cert.Mha.prob x0 x1 x2 b h s k * Cert.Mha.proj x0 x1 x2 b k (Cert.Mha.vcol (col h d)) := by
  rw [Read.val_main_v27_apply]
  have el : ∀ k : Fin 2048, Read.lidx_main_v27 (ix4 b h s d) k = ix4 b h s k := fun k => funext fun a => by
    match a with | ⟨0, _⟩ => rfl | ⟨1, _⟩ => rfl | ⟨2, _⟩ => rfl | ⟨3, _⟩ => rfl
  have er : ∀ k : Fin 2048, Read.ridx_main_v27 (ix4 b h s d) k = ix4 b h k d := fun k => funext fun a => by
    match a with | ⟨0, _⟩ => rfl | ⟨1, _⟩ => rfl | ⟨2, _⟩ => rfl | ⟨3, _⟩ => rfl
  refine Finset.sum_congr rfl fun k _ => ?_
  rw [el, er, prob_at, value_at]

/-- Joining the 16 runs of 64 back into 1024 columns, the head axis after the row axis: column `e` is number
    `e % 64` of head `e / 64`. -/
theorem join_idx (b : Fin 4) (s : Fin 2048) (e : Fin 1024) :
    Read.idx_main_v28 (Read.idx_main_v29 (ix3 b s e))
      = ix4 b (Cert.Mha.headOf e) s (⟨e.val % 64, Nat.mod_lt _ (by decide)⟩ : Fin 64) := funext fun a => Fin.ext (by
  have hb := b.isLt; have hs := s.isLt; have he := e.isLt
  match a with
  | ⟨0, _⟩ => show (((b.val * 2048 + s.val) * 1024 + e.val) / 2097152 = b.val); omega
  | ⟨1, _⟩ => show (((b.val * 2048 + s.val) * 1024 + e.val) / 64 % 16 = e.val / 64); omega
  | ⟨2, _⟩ => show (((b.val * 2048 + s.val) * 1024 + e.val) / 1024 % 2048 = s.val); omega
  | ⟨3, _⟩ => show (((b.val * 2048 + s.val) * 1024 + e.val) % 64 = e.val % 64); omega)

/-- Column `e` is the `e % 64`-th of run `e / 64`. -/
theorem col_headOf (e : Fin 1024) : col (Cert.Mha.headOf e) (⟨e.val % 64, Nat.mod_lt _ (by decide)⟩ : Fin 64) = e :=
  Fin.ext (by show e.val / 64 * 64 + e.val % 64 = e.val; omega)

/-- Attention column `e` of token (b, s). -/
theorem attn_at (b : Fin 4) (s : Fin 2048) (e : Fin 1024) :
    Read.val_main_v29 (F := Ideal) x0 x1 x2 (ix3 b s e) = Cert.Mha.attn x0 x1 x2 b s e := by
  rw [Read.val_main_v29_apply, Read.val_main_v28_apply, join_idx, headAttn_at, col_headOf, Cert.Mha.attn_eq]

/-! ## The output projection -/

/-- Output number `f` of token (b, s). -/
theorem out_at (b : Fin 4) (s : Fin 2048) (f : Fin 1024) :
    Read.val_main_v33 (F := Ideal) x0 x1 x2 x3 x4 (ix3 b s f) = Cert.Mha.out x0 x1 x2 x3 x4 b s f := by
  rw [Read.val_main_v33_apply, Read.val_main_v30_apply, Read.val_main_v32_apply, Read.val_main_v31_apply]
  simp only [Ideal.addf_def]
  rw [Cert.Mha.out_eq]
  have el : ∀ k : Fin 1024, Read.lidx_main_v30 (ix3 b s f) k = ix3 b s k := fun k => funext fun a => by
    match a with | ⟨0, _⟩ => rfl | ⟨1, _⟩ => rfl | ⟨2, _⟩ => rfl
  have er : ∀ k : Fin 1024, Read.ridx_main_v30 (ix3 b s f) k = ix2 f k := fun k => funext fun a => by
    match a with | ⟨0, _⟩ => rfl | ⟨1, _⟩ => rfl
  have eb : Read.idx_main_v31 (Read.idx_main_v32 (ix3 b s f)) = ix1 f := funext fun a => by
    match a with | ⟨0, _⟩ => rfl
  rw [eb]
  refine congrArg (· + x4 (ix1 f)) (Finset.sum_congr rfl fun k _ => ?_)
  rw [el, er, attn_at]

/-- The reference program's result is the specification function, index by index. -/
theorem ref_is_spec (x0 : (⟨S4x2048x1024, .f32⟩ : BufTy).Contents (Elt Ideal)) (x1 : (⟨S3072x1024, .f32⟩ : BufTy).Contents (Elt Ideal)) (x2 : (⟨S3072, .f32⟩ : BufTy).Contents (Elt Ideal)) (x3 : (⟨S1024x1024, .f32⟩ : BufTy).Contents (Elt Ideal)) (x4 : (⟨S1024, .f32⟩ : BufTy).Contents (Elt Ideal)) :
    Cert.ReferenceIdeal.Read.val_main_v33 (F := Ideal) x0 x1 x2 x3 x4 = Cert.Mha.G x0 x1 x2 x3 x4 := by
  funext i
  obtain ⟨b, s, f, rfl⟩ : ∃ (b : Fin 4) (s : Fin 2048) (f : Fin 1024), i = ix3 b s f := ⟨i 0, i 1, i 2, eq_ix3 i⟩
  rw [out_at, Cert.Mha.G_ix3]

end Cert.ReferenceIdeal.RefValue

end
-- ==== Proof.HeadValue.lean ====
/-
  One head, and one pair of heads, of the attention kernel's body as functions of their operands — the same
  operations the body applies sixteen times — and what a pair computes at one entry over the extended reals.
  A head takes 64 query columns and 64 key columns, forms the 256 × 2048 scores (inner products times 1/8),
  turns each row into weights (subtract the row's maximum, exponentiate, divide by the row's sum) and averages the
  64 value columns with them.  A pair is two heads on the two halves of a 128-column block, side by side.
-/
import proofs.«429547_j52226802319567_3_alg».proof.Proof.Gen.KernelIdeal
import proofs.«429547_j52226802319567_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

section
variable {F : FTy → Type} [FloatOps F]

/-- One head: scores, row maximum, exponentials, row sum, quotient, weighted average of the value columns. -/
def headOut (qh : FVec F S256x64 .bf16) (kh vh : FVec F S2048x64 .bf16) : FVec F S256x64 .f32 :=
  have cst : FVec F S256x2048 .f32 := constant S256x2048 .f32 0x00000000#32
  have v12 : FVec F S256x2048 .f32 := matmul dot_S256x64_S2048x64_S256x2048_1_1_0_0_n_n none qh kh cst
  have cst_8 : F .f32 := Scalar.ofBits .f32 0x3E000000#32
  have v13 : FVec F S256x2048 .f32 := broadcast S256x2048 cst_8
  have v14 : FVec F S256x2048 .f32 := mulf v12 v13
  have v15 : FVec F S256 .f32 := multiReduction .maximumf [1] S256 v14 0xFF800000#32 reduces_S256x2048_S256 (.inl rfl) rfl
  have v16 : FVec F S256x1 .f32 := shapeCast S256x1 v15 shapeCasts_S256_S256x1
  have v17 : FVec F S256x2048 .f32 := broadcastTo S256x2048 v16 broadcasts_S256x1_S256x2048
  have v18 : FVec F S256x2048 .f32 := subf v14 v17
  have v19 : FVec F S256x2048 .f32 := exp v18
  have v20 : FVec F S256 .f32 := multiReduction .add [1] S256 v19 0x00000000#32 reduces_S256x2048_S256 (.inl rfl) rfl
  have v21 : FVec F S256x1 .f32 := shapeCast S256x1 v20 shapeCasts_S256_S256x1
  have v22 : FVec F S256x2048 .f32 := broadcastTo S256x2048 v21 broadcasts_S256x1_S256x2048
  have v23 : FVec F S256x2048 .f32 := divf v19 v22
  have v24 : FVec F S256x2048 .bf16 := truncf .bf16 v23 bitsLt_bf16_f32
  have cst_11 : FVec F S256x64 .f32 := constant S256x64 .f32 0x00000000#32
  matmul dot_S256x2048_S2048x64_S256x64_1_0_0_1_n_n none v24 vh cst_11

/-- A pair of heads on a 128-column block: the two 64-column halves, each through `headOut`, side by side. -/
def pairOut (q6 : FVec F S256x128 .bf16) (k7 v8 : FVec F S2048x128 .bf16) : FVec F S256x128 .f32 :=
  concatenate S256x128 1
    [⟨S256x64, headOut (extractStridedSlice S256x64 ![0, 0] q6 slices_S256x128_o0_0_S256x64)
        (extractStridedSlice S2048x64 ![0, 0] k7 slices_S2048x128_o0_0_S2048x64)
        (extractStridedSlice S2048x64 ![0, 0] v8 slices_S2048x128_o0_0_S2048x64)⟩,
     ⟨S256x64, headOut (extractStridedSlice S256x64 ![0, 64] q6 slices_S256x128_o0_64_S256x64)
        (extractStridedSlice S2048x64 ![0, 64] k7 slices_S2048x128_o0_64_S2048x64)
        (extractStridedSlice S2048x64 ![0, 64] v8 slices_S2048x128_o0_64_S2048x64)⟩]
    concatenates_S256x64_S256x64_S256x128_d1

end

/-! The lemmas that read a head, stage by stage, live in their own namespace; `pairOut_apply` below is what they are for. -/
namespace Head

/-! ## The two products read at an entry

A product into the zero accumulator is, at an entry, the sum over the contracted axis of the operands' products;
the contracted position is one coordinate, and the operands' indices are the entry's coordinates with it. -/

theorem lhs_score_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_score_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_score_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_score_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The score product at (r, k): the inner product of query row r and key row k. -/
theorem score_matmul_apply (qh : FVec Ideal S256x64 .bf16) (kh : FVec Ideal S2048x64 .bf16) (r : Fin 256) (k : Fin 2048) :
    matmul dot_S256x64_S2048x64_S256x2048_1_1_0_0_n_n none qh kh (constant (F := Ideal) S256x2048 .f32 0x00000000#32) (ix2 r k)
      = ∑ d : Fin 64, qh (ix2 r d) * kh (ix2 k d) := by
  simp only [matmul]
  rw [Ideal.matmul_constant_zero_apply, ← Equiv.sum_comp (ValueIdx.contrEquiv1 dot_S256x64_S2048x64_S256x2048_1_1_0_0_n_n 64 rfl rfl).symm]
  refine Finset.sum_congr rfl fun d _ => ?_
  have hd := ValueIdx.contrEquiv1_symm_val dot_S256x64_S2048x64_S256x2048_1_1_0_0_n_n 64 rfl rfl d
  have el : dot_S256x64_S2048x64_S256x2048_1_1_0_0_n_n.lhsIdx (ix2 r k) ((ValueIdx.contrEquiv1 dot_S256x64_S2048x64_S256x2048_1_1_0_0_n_n 64 rfl rfl).symm d) = ix2 r d := funext fun a => Fin.ext (by
    match a with
    | ⟨0, _⟩ => exact lhs_score_0 _ _
    | ⟨1, _⟩ => exact (lhs_score_1 _ _).trans hd)
  have er : dot_S256x64_S2048x64_S256x2048_1_1_0_0_n_n.rhsIdx (ix2 r k) ((ValueIdx.contrEquiv1 dot_S256x64_S2048x64_S256x2048_1_1_0_0_n_n 64 rfl rfl).symm d) = ix2 k d := funext fun a => Fin.ext (by
    match a with
    | ⟨0, _⟩ => exact rhs_score_0 _ _
    | ⟨1, _⟩ => exact (rhs_score_1 _ _).trans hd)
  rw [el, er]

theorem lhs_value_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_value_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_value_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_value_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The averaging product at (r, d): the sum over key rows k of weight (r, k) times value (k, d). -/
theorem value_matmul_apply (pr : FVec Ideal S256x2048 .bf16) (vh : FVec Ideal S2048x64 .bf16) (r : Fin 256) (d : Fin 64) :
    matmul dot_S256x2048_S2048x64_S256x64_1_0_0_1_n_n none pr vh (constant (F := Ideal) S256x64 .f32 0x00000000#32) (ix2 r d)
      = ∑ k : Fin 2048, pr (ix2 r k) * vh (ix2 k d) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 r d) ((ValueIdx.contrEquiv1 dot_S256x2048_S2048x64_S256x64_1_0_0_1_n_n 2048 rfl rfl).symm k) = ix2 r k := funext fun a => Fin.ext (by
    match a with
    | ⟨0, _⟩ => exact lhs_value_0 _ _
    | ⟨1, _⟩ => exact (lhs_value_1 _ _).trans hk)
  have er : dot_S256x2048_S2048x64_S256x64_1_0_0_1_n_n.rhsIdx (ix2 r d) ((ValueIdx.contrEquiv1 dot_S256x2048_S2048x64_S256x64_1_0_0_1_n_n 2048 rfl rfl).symm k) = ix2 k d := funext fun a => Fin.ext (by
    match a with
    | ⟨0, _⟩ => exact (rhs_value_0 _ _).trans hk
    | ⟨1, _⟩ => exact rhs_value_1 _ _)
  rw [el, er]

/-! ## A row statistic kept as a column and spread over the row -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A row statistic of a 256 × 2048 array, kept as a column and spread back over the row, reads the statistic of row r. -/
theorem colSpread_apply {α : Type} (x : S256.Idx → α) (r : Fin 256) (k : Fin 2048) :
    broadcastTo S256x2048 (shapeCast S256x1 x shapeCasts_S256_S256x1) broadcasts_S256x1_S256x2048 (ix2 r k) = x (ix1 r) :=
  (broadcastTo_a1_ab_apply _ _ r k).trans (shapeCast_a_a1_apply x _ r 0)

/-! ## The two row reductions -/

/-- The row maximum at r: the fold of max from minus infinity over the 2048 entries of row r. -/
theorem rowMax_apply (v : FVec Ideal S256x2048 .f32) (hφ : FKind.Formats .f32)
    (hacc : (0xFF800000#32 : BitVec 32) = FKind.maximumf.neutral .f32 hφ) (r : Fin 256) :
    multiReduction (F := Ideal) .maximumf [1] S256 v 0xFF800000#32 reduces_S256x2048_S256 hφ hacc (ix1 r)
      = (Finset.univ : Finset (Fin 2048)).fold max Cert.Mha.negInf (fun k => v (ix2 r k)) := by
  refine (Ideal.multiReduction_maximumf_single v _ reduces_S256x2048_S256 hφ hacc (ix1 r)).trans ?_
  show (Finset.univ : Finset (Fin 2048)).fold max Cert.Mha.negInf (fun k => v (reduces_S256x2048_S256.lift (ix1 r) k)) = _
  refine congrArg (fun f => (Finset.univ : Finset (Fin 2048)).fold max Cert.Mha.negInf f) (funext fun k => ?_)
  exact congrArg v (funext fun a => Fin.ext (by
    match a with
    | ⟨0, _⟩ => rfl
    | ⟨1, _⟩ => rfl))

/-- The row sum at r: the sum of the 2048 entries of row r. -/
theorem rowSum_apply (v : FVec Ideal S256x2048 .f32) (hφ : FKind.Formats .f32)
    (hacc : (0x00000000#32 : BitVec 32) = FKind.add.neutral .f32 hφ) (r : Fin 256) :
    multiReduction (F := Ideal) .add [1] S256 v 0x00000000#32 reduces_S256x2048_S256 hφ hacc (ix1 r)
      = ∑ k : Fin 2048, v (ix2 r k) := by
  refine (Ideal.multiReduction_add_single v _ reduces_S256x2048_S256 hφ hacc (ix1 r)).trans ?_
  show ∑ k : Fin 2048, v (reduces_S256x2048_S256.lift (ix1 r) k) = _
  refine Finset.sum_congr rfl fun k _ => ?_
  exact congrArg v (funext fun a => Fin.ext (by
    match a with
    | ⟨0, _⟩ => rfl
    | ⟨1, _⟩ => rfl))

/-! ## A head in three stages -/

section
variable {F : FTy → Type} [FloatOps F]

/-- The scaled scores: the score product times 1/8. -/
def hScore (qh : FVec F S256x64 .bf16) (kh : FVec F S2048x64 .bf16) : FVec F S256x2048 .f32 :=
  mulf (matmul dot_S256x64_S2048x64_S256x2048_1_1_0_0_n_n none qh kh (constant S256x2048 .f32 0x00000000#32))
    (broadcast S256x2048 (Scalar.ofBits .f32 0x3E000000#32 : F .f32))

/-- A row's unnormalised weights from its scores: minus the row maximum, exponentiated. -/
def hWeight (s : FVec F S256x2048 .f32) : FVec F S256x2048 .f32 :=
  exp (subf s (broadcastTo S256x2048 (shapeCast S256x1
    (multiReduction .maximumf [1] S256 s 0xFF800000#32 reduces_S256x2048_S256 (.inl rfl) rfl) shapeCasts_S256_S256x1)
    broadcasts_S256x1_S256x2048))

/-- The weights divided by their row sums. -/
def hProb (e : FVec F S256x2048 .f32) : FVec F S256x2048 .bf16 :=
  truncf .bf16 (divf e (broadcastTo S256x2048 (shapeCast S256x1
    (multiReduction .add [1] S256 e 0x00000000#32 reduces_S256x2048_S256 (.inl rfl) rfl) shapeCasts_S256_S256x1)
    broadcasts_S256x1_S256x2048)) bitsLt_bf16_f32

/-- A head is the averaging product of the normalised weights of the scaled scores with the value columns. -/
theorem headOut_eq (qh : FVec F S256x64 .bf16) (kh vh : FVec F S2048x64 .bf16) :
    headOut qh kh vh = matmul dot_S256x2048_S2048x64_S256x64_1_0_0_1_n_n none (hProb (hWeight (hScore qh kh))) vh (constant S256x64 .f32 0x00000000#32) := rfl

end

theorem hScore_apply (qh : FVec Ideal S256x64 .bf16) (kh : FVec Ideal S2048x64 .bf16) (r : Fin 256) (k : Fin 2048) :
    hScore (F := Ideal) qh kh (ix2 r k) = (∑ d : Fin 64, qh (ix2 r d) * kh (ix2 k d)) * Cert.Mha.eighth :=
  congrArg (fun x => x * Cert.Mha.eighth) (score_matmul_apply qh kh r k)

theorem hWeight_apply (s : FVec Ideal S256x2048 .f32) (r : Fin 256) (k : Fin 2048) :
    hWeight (F := Ideal) s (ix2 r k)
      = Ideal.exp (s (ix2 r k) - (Finset.univ : Finset (Fin 2048)).fold max Cert.Mha.negInf (fun k' => s (ix2 r k'))) := by
  have h := (colSpread_apply (multiReduction (F := Ideal) .maximumf [1] S256 s 0xFF800000#32 reduces_S256x2048_S256 (.inl rfl) rfl) r k).trans
    (rowMax_apply s _ _ r)
  exact congrArg (fun m => Ideal.exp (s (ix2 r k) - m)) h

theorem hProb_apply (e : FVec Ideal S256x2048 .f32) (r : Fin 256) (k : Fin 2048) :
    hProb (F := Ideal) e (ix2 r k) = Ideal.div (e (ix2 r k)) (∑ k' : Fin 2048, e (ix2 r k')) := by
  have h := (colSpread_apply (multiReduction (F := Ideal) .add [1] S256 e 0x00000000#32 reduces_S256x2048_S256 (.inl rfl) rfl) r k).trans
    (rowSum_apply e _ _ r)
  exact congrArg (fun m => Ideal.div (e (ix2 r k)) m) h

/-! ## A head at one entry -/

/-- The scaled score of query row r against key row k, for 64-column rows. -/
def headScore (Qh : Fin 256 → Fin 64 → EReal) (Kh : Fin 2048 → Fin 64 → EReal) (r : Fin 256) (k : Fin 2048) : EReal :=
  (∑ d : Fin 64, Qh r d * Kh k d) * Cert.Mha.eighth

/-- The largest scaled score of query row r. -/
def headMax (Qh : Fin 256 → Fin 64 → EReal) (Kh : Fin 2048 → Fin 64 → EReal) (r : Fin 256) : EReal :=
  (Finset.univ : Finset (Fin 2048)).fold max Cert.Mha.negInf (fun k => headScore Qh Kh r k)

/-- A head's entry (r, d): the average of value column d with the normalised weights of query row r. -/
theorem headOut_apply (qh : FVec Ideal S256x64 .bf16) (kh vh : FVec Ideal S2048x64 .bf16)
    (Qh : Fin 256 → Fin 64 → EReal) (Kh Vh : Fin 2048 → Fin 64 → EReal)
    (hq : ∀ (r : Fin 256) (d : Fin 64), qh (ix2 r d) = Qh r d)
    (hk : ∀ (k : Fin 2048) (d : Fin 64), kh (ix2 k d) = Kh k d)
    (hv : ∀ (k : Fin 2048) (d : Fin 64), vh (ix2 k d) = Vh k d)
    (r : Fin 256) (d : Fin 64) :
    headOut (F := Ideal) qh kh vh (ix2 r d)
      = ∑ k : Fin 2048, Ideal.div (Ideal.exp (headScore Qh Kh r k - headMax Qh Kh r))
          (∑ k' : Fin 2048, Ideal.exp (headScore Qh Kh r k' - headMax Qh Kh r)) * Vh k d := by
  rw [headOut_eq]
  refine (value_matmul_apply _ vh r d).trans ?_
  have hs : ∀ k : Fin 2048, hScore (F := Ideal) qh kh (ix2 r k) = headScore Qh Kh r k := fun k => by
    rw [hScore_apply]; unfold headScore; simp only [hq, hk]
  have hw : ∀ k : Fin 2048, hWeight (F := Ideal) (hScore qh kh) (ix2 r k)
      = Ideal.exp (headScore Qh Kh r k - headMax Qh Kh r) := fun k => by
    rw [hWeight_apply]; unfold headMax; simp only [hs]
  refine Finset.sum_congr rfl fun k _ => ?_
  rw [hProb_apply, hv]; simp only [hw]

/-! ## A head on a 64-column window of the blocks -/

/-- A head fed the 64 columns from `o` of three 128-column blocks that are columns `p·128 …` of `Q`, `K`, `Vv`,
    when those 64 columns are head `h`'s (`h·64 = p·128 + o`): its entry (r, d) is attention column `h·64 + d` of
    query row r. -/
theorem headOut_window_apply (o : Nat) (hsq : S256x128.Slices ![0, o] S256x64) (hsk : S2048x128.Slices ![0, o] S2048x64)
    (q6 : FVec Ideal S256x128 .bf16) (k7 v8 : FVec Ideal S2048x128 .bf16)
    (Q : Fin 256 → Fin 1024 → EReal) (K Vv : Fin 2048 → Fin 1024 → EReal) (p : Fin 8)
    (hq : ∀ (r : Fin 256) (c : Fin 128), q6 (ix2 r c) = Q r ⟨p.val * 128 + c.val, by omega⟩)
    (hk : ∀ (k : Fin 2048) (c : Fin 128), k7 (ix2 k c) = K k ⟨p.val * 128 + c.val, by omega⟩)
    (hv : ∀ (k : Fin 2048) (c : Fin 128), v8 (ix2 k c) = Vv k ⟨p.val * 128 + c.val, by omega⟩)
    (h : Fin 16) (hh : h.val * 64 = p.val * 128 + o) (r : Fin 256) (d : Fin 64) :
    headOut (F := Ideal) (extractStridedSlice S256x64 ![0, o] q6 hsq) (extractStridedSlice S2048x64 ![0, o] k7 hsk)
        (extractStridedSlice S2048x64 ![0, o] v8 hsk) (ix2 r d)
      = ∑ k : Fin 2048, Cert.Mha.probT Q K h r k * Vv k (Cert.Mha.hcol h d) := by
  have hcolv : ∀ (d : Fin 64) (hlt : o + d.val < 128),
      (⟨p.val * 128 + (⟨o + d.val, hlt⟩ : Fin 128).val, by omega⟩ : Fin 1024) = Cert.Mha.hcol h d := fun d hlt =>
    Fin.ext (by show p.val * 128 + (o + d.val) = h.val * 64 + d.val; omega)
  refine (headOut_apply _ _ _ (fun r d => Q r (Cert.Mha.hcol h d)) (fun k d => K k (Cert.Mha.hcol h d))
    (fun k d => Vv k (Cert.Mha.hcol h d)) (fun r d => ?_) (fun k d => ?_) (fun k d => ?_) r d).trans ?_
  · exact (slice2_axis1_eq o q6 hsq r d).trans ((hq r _).trans (congrArg (Q r) (hcolv d _)))
  · exact (slice2_axis1_eq o k7 hsk k d).trans ((hk k _).trans (congrArg (K k) (hcolv d _)))
  · exact (slice2_axis1_eq o v8 hsk k d).trans ((hv k _).trans (congrArg (Vv k) (hcolv d _)))
  · rfl

end Head

open Head in
/-- A pair at one entry: when the three 128-column blocks are columns `p·128 …` of query rows `Q`, key rows `K` and
    value rows `Vv`, the pair's entry (r, c) is attention column `p·128 + c` of query row `r`. -/
theorem pairOut_apply (q6 : FVec Ideal S256x128 .bf16) (k7 v8 : FVec Ideal S2048x128 .bf16)
    (Q : Fin 256 → Fin 1024 → EReal) (K Vv : Fin 2048 → Fin 1024 → EReal) (p : Fin 8)
    (hq : ∀ (r : Fin 256) (c : Fin 128), q6 (ix2 r c) = Q r ⟨p.val * 128 + c.val, by omega⟩)
    (hk : ∀ (k : Fin 2048) (c : Fin 128), k7 (ix2 k c) = K k ⟨p.val * 128 + c.val, by omega⟩)
    (hv : ∀ (k : Fin 2048) (c : Fin 128), v8 (ix2 k c) = Vv k ⟨p.val * 128 + c.val, by omega⟩)
    (r : Fin 256) (c : Fin 128) :
    pairOut (F := Ideal) q6 k7 v8 (ix2 r c) = Cert.Mha.attnT Q K Vv r ⟨p.val * 128 + c.val, by omega⟩ := by
  unfold pairOut
  by_cases hc : c.val < 64
  · have hp2 : 2 * p.val < 16 := by omega
    refine (concatenate_pair_apply_left (1 : Fin S256x128.rank) _ _ concatenates_S256x64_S256x64_S256x128_d1 (ix2 r c) rfl
      (ix2 r (⟨c.val, hc⟩ : Fin 64)) (fun b => by match b with | ⟨0, _⟩ => rfl | ⟨1, _⟩ => rfl)).trans ?_
    refine (headOut_window_apply 0 _ _ q6 k7 v8 Q K Vv p hq hk hv ⟨2 * p.val, hp2⟩
      (by show 2 * p.val * 64 = p.val * 128 + 0; omega) r ⟨c.val, hc⟩).trans ?_
    have he : Cert.Mha.headOf ⟨p.val * 128 + c.val, by omega⟩ = ⟨2 * p.val, hp2⟩ :=
      Fin.ext (by show (p.val * 128 + c.val) / 64 = 2 * p.val; omega)
    have hcl : Cert.Mha.hcol ⟨2 * p.val, hp2⟩ ⟨c.val, hc⟩ = ⟨p.val * 128 + c.val, by omega⟩ :=
      Fin.ext (by show 2 * p.val * 64 + c.val = p.val * 128 + c.val; omega)
    unfold Cert.Mha.attnT
    rw [he, hcl]
  · have hp2 : 2 * p.val + 1 < 16 := by omega
    have hc2 : c.val - 64 < 64 := by omega
    refine (concatenate_pair_apply_right (1 : Fin S256x128.rank) _ _ concatenates_S256x64_S256x64_S256x128_d1 (ix2 r c) rfl rfl
      (ix2 r (⟨c.val - 64, hc2⟩ : Fin 64))
      (fun b => by
        match b with
        | ⟨0, _⟩ => exact fun _ => rfl
        | ⟨1, _⟩ => exact fun hb => absurd rfl hb)
      (by show (c.val - 64) + 64 = c.val; omega)).trans ?_
    refine (headOut_window_apply 64 _ _ q6 k7 v8 Q K Vv p hq hk hv ⟨2 * p.val + 1, hp2⟩
      (by show (2 * p.val + 1) * 64 = p.val * 128 + 64; omega) r ⟨c.val - 64, hc2⟩).trans ?_
    have he : Cert.Mha.headOf ⟨p.val * 128 + c.val, by omega⟩ = ⟨2 * p.val + 1, hp2⟩ :=
      Fin.ext (by show (p.val * 128 + c.val) / 64 = 2 * p.val + 1; omega)
    have hcl : Cert.Mha.hcol ⟨2 * p.val + 1, hp2⟩ ⟨c.val - 64, hc2⟩ = ⟨p.val * 128 + c.val, by omega⟩ :=
      Fin.ext (by show (2 * p.val + 1) * 64 + (c.val - 64) = p.val * 128 + c.val; omega)
    unfold Cert.Mha.attnT
    rw [he, hcl]

end Cert.KernelIdeal.Hand

end
-- ==== Proof.K1Pay.lean ====
/-
  The value the second pallas_call's body stores, read at one entry over the extended reals: for query row r of the
  tile and output column f it is the attention of that row over all 2048 key and value rows, head by head, sent
  through the output projection — the tile-level function `Cert.Mha.outT` of the five loaded blocks.
-/
import proofs.«429547_j52226802319567_3_alg».proof.Proof.IdealRegion1
import proofs.«429547_j52226802319567_3_alg».proof.Proof.Spec
import proofs.«429547_j52226802319567_3_alg».proof.Proof.HeadValue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section
variable {F : FTy → Type} [FloatOps F]

/-- The eight head pairs on the eight 128-column blocks of the query, key and value matrices, side by side. -/
def heads (v1 : FVec F S256x1024 .bf16) (v3 v5 : FVec F S2048x1024 .bf16) : FVec F S256x1024 .f32 :=
  concatenate S256x1024 1
    [⟨S256x128, pairOut (extractStridedSlice S256x128 ![0, 0] v1 slices_S256x1024_o0_0_S256x128)
        (extractStridedSlice S2048x128 ![0, 0] v3 slices_S2048x1024_o0_0_S2048x128)
        (extractStridedSlice S2048x128 ![0, 0] v5 slices_S2048x1024_o0_0_S2048x128)⟩,
     ⟨S256x128, pairOut (extractStridedSlice S256x128 ![0, 128] v1 slices_S256x1024_o0_128_S256x128)
        (extractStridedSlice S2048x128 ![0, 128] v3 slices_S2048x1024_o0_128_S2048x128)
        (extractStridedSlice S2048x128 ![0, 128] v5 slices_S2048x1024_o0_128_S2048x128)⟩,
     ⟨S256x128, pairOut (extractStridedSlice S256x128 ![0, 256] v1 slices_S256x1024_o0_256_S256x128)
        (extractStridedSlice S2048x128 ![0, 256] v3 slices_S2048x1024_o0_256_S2048x128)
        (extractStridedSlice S2048x128 ![0, 256] v5 slices_S2048x1024_o0_256_S2048x128)⟩,
     ⟨S256x128, pairOut (extractStridedSlice S256x128 ![0, 384] v1 slices_S256x1024_o0_384_S256x128)
        (extractStridedSlice S2048x128 ![0, 384] v3 slices_S2048x1024_o0_384_S2048x128)
        (extractStridedSlice S2048x128 ![0, 384] v5 slices_S2048x1024_o0_384_S2048x128)⟩,
     ⟨S256x128, pairOut (extractStridedSlice S256x128 ![0, 512] v1 slices_S256x1024_o0_512_S256x128)
        (extractStridedSlice S2048x128 ![0, 512] v3 slices_S2048x1024_o0_512_S2048x128)
        (extractStridedSlice S2048x128 ![0, 512] v5 slices_S2048x1024_o0_512_S2048x128)⟩,
     ⟨S256x128, pairOut (extractStridedSlice S256x128 ![0, 640] v1 slices_S256x1024_o0_640_S256x128)
        (extractStridedSlice S2048x128 ![0, 640] v3 slices_S2048x1024_o0_640_S2048x128)
        (extractStridedSlice S2048x128 ![0, 640] v5 slices_S2048x1024_o0_640_S2048x128)⟩,
     ⟨S256x128, pairOut (extractStridedSlice S256x128 ![0, 768] v1 slices_S256x1024_o0_768_S256x128)
        (extractStridedSlice S2048x128 ![0, 768] v3 slices_S2048x1024_o0_768_S2048x128)
        (extractStridedSlice S2048x128 ![0, 768] v5 slices_S2048x1024_o0_768_S2048x128)⟩,
     ⟨S256x128, pairOut (extractStridedSlice S256x128 ![0, 896] v1 slices_S256x1024_o0_896_S256x128)
        (extractStridedSlice S2048x128 ![0, 896] v3 slices_S2048x1024_o0_896_S2048x128)
        (extractStridedSlice S2048x128 ![0, 896] v5 slices_S2048x1024_o0_896_S2048x128)⟩]
    concatenates_S256x128_S256x128_S256x128_S256x128_S256x128_S256x128_S256x128_S256x128_S256x1024_d1

/-- The output projection of the attention rows, its bias, and the cast back to a one-batch block. -/
def epilogue (att : FVec F S256x1024 .f32) (v312 : Vec F S1024x1024 .bf16) (v315 : Vec F S1024 .f32) : FVec F S1x256x1024 .f32 :=
  have v311 : FVec F S256x1024 .bf16 := truncf .bf16 att bitsLt_bf16_f32
  have v313 : FVec F S1024x1024 .bf16 := shapeCast S1024x1024 v312 shapeCasts_S1024x1024_S1024x1024
  have cst_89 : FVec F S256x1024 .f32 := constant S256x1024 .f32 0x00000000#32
  have v314 : FVec F S256x1024 .f32 := matmul dot_S256x1024_S1024x1024_S256x1024_1_1_0_0_n_n none v311 v313 cst_89
  have v316 : FVec F S1x1024 .f32 := shapeCast S1x1024 v315 shapeCasts_S1024_S1x1024
  have v317 : FVec F S256x1024 .f32 := broadcastTo S256x1024 v316 broadcasts_S1x1024_S256x1024
  have v318 : FVec F S256x1024 .f32 := addf v314 v317
  shapeCast S1x256x1024 v318 shapeCasts_S256x1024_S1x256x1024

set_option maxRecDepth 65536 in
/-- The stored value is the epilogue of the eight pairs: the same operations, regrouped. -/
theorem body1_eq (v0 : Vec F S1x256x1024 .bf16) (v2 v4 : Vec F S1x2048x1024 .bf16) (v312 : Vec F S1024x1024 .bf16) (v315 : Vec F S1024 .f32) :
    body1 v0 v2 v4 v312 v315
      = epilogue (heads (shapeCast S256x1024 v0 shapeCasts_S1x256x1024_S256x1024) (shapeCast S2048x1024 v2 shapeCasts_S1x2048x1024_S2048x1024)
          (shapeCast S2048x1024 v4 shapeCasts_S1x2048x1024_S2048x1024)) v312 v315 := rfl

end

section Pieces
variable (v0 : Vec Ideal S1x256x1024 .bf16) (v2 v4 : Vec Ideal S1x2048x1024 .bf16)

/-- Columns o … o+127 of the three loaded blocks through a pair: attention columns p·128 … p·128+127 of the tile. -/
theorem piece_apply (p : Fin 8) (o : Nat) (ho : o = p.val * 128)
    (hs1 : S256x1024.Slices ![0, o] S256x128) (hs2 : S2048x1024.Slices ![0, o] S2048x128) (r : Fin 256) (c : Fin 128) :
    pairOut (F := Ideal) (extractStridedSlice S256x128 ![0, o] (shapeCast S256x1024 v0 shapeCasts_S1x256x1024_S256x1024) hs1)
        (extractStridedSlice S2048x128 ![0, o] (shapeCast S2048x1024 v2 shapeCasts_S1x2048x1024_S2048x1024) hs2)
        (extractStridedSlice S2048x128 ![0, o] (shapeCast S2048x1024 v4 shapeCasts_S1x2048x1024_S2048x1024) hs2) (ix2 r c)
      = Cert.Mha.attnT (fun (s : Fin 256) (c : Fin 1024) => v0 (ix3 (0 : Fin 1) s c)) (fun (k : Fin 2048) (c : Fin 1024) => v2 (ix3 (0 : Fin 1) k c))
          (fun (k : Fin 2048) (c : Fin 1024) => v4 (ix3 (0 : Fin 1) k c)) r ⟨p.val * 128 + c.val, by omega⟩ := by
  subst ho
  refine pairOut_apply _ _ _ _ _ _ p ?_ ?_ ?_ r c
  · intro r c
    rw [slice2_axis1_eq, shapeCast_1ab_ab_apply]
  · intro k c
    rw [slice2_axis1_eq, shapeCast_1ab_ab_apply]
  · intro k c
    rw [slice2_axis1_eq, shapeCast_1ab_ab_apply]

/-- Pieces of 128 columns laid side by side along the columns of a 256 × 1024 matrix: column k·128 + c of the whole is
    column c of piece k, when the pieces before it take up k·128 columns. -/
theorem cat_piece {α : Type} (xs : List ((s : Shape) × (s.Idx → α))) (h : Shape.Concatenates (xs.map (·.1)) S256x1024 1)
    (k : Nat) (hk : k < xs.length) (x₁ : S256x128.Idx → α) (hxk : xs[k] = ⟨S256x128, x₁⟩)
    (hpre : (((xs.take k).map (·.1)).map fun s => if h : s.rank = S256x1024.rank then s.size ((1 : Fin S256x1024.rank).cast h.symm) else 0).sum = k * 128)
    (r : Fin 256) (c : Fin 128) (e : Fin 1024) (he : e.val = k * 128 + c.val) :
    concatenate S256x1024 1 xs h (ix2 r e) = x₁ (ix2 r c) :=
  concatenate_apply_piece (1 : Fin 2) xs h (ix2 r e) k hk S256x128 x₁ hxk rfl (k * 128) hpre (ix2 r c)
    (fun b hb => match b, hb with
      | ⟨0, _⟩, _ => rfl
      | ⟨1, _⟩, hb => absurd rfl hb) he.symm

/-- The eight pairs side by side are the tile's attention rows: entry (r, e) is attention column e of query row r. -/
theorem heads_apply (r : Fin 256) (e : Fin 1024) :
    heads (F := Ideal) (shapeCast S256x1024 v0 shapeCasts_S1x256x1024_S256x1024) (shapeCast S2048x1024 v2 shapeCasts_S1x2048x1024_S2048x1024)
        (shapeCast S2048x1024 v4 shapeCasts_S1x2048x1024_S2048x1024) (ix2 r e)
      = Cert.Mha.attnT (fun (s : Fin 256) (c : Fin 1024) => v0 (ix3 (0 : Fin 1) s c)) (fun (k : Fin 2048) (c : Fin 1024) => v2 (ix3 (0 : Fin 1) k c))
          (fun (k : Fin 2048) (c : Fin 1024) => v4 (ix3 (0 : Fin 1) k c)) r e := by
  obtain ⟨p, c, he⟩ : ∃ (p : Fin 8) (c : Fin 128), e = ⟨p.val * 128 + c.val, by omega⟩ :=
    ⟨⟨e.val / 128, by omega⟩, ⟨e.val % 128, by omega⟩, Fin.ext (by show e.val = e.val / 128 * 128 + e.val % 128; omega)⟩
  subst he
  unfold heads
  match p with
  | ⟨0, _⟩ => exact (cat_piece _ _ 0 (show _ < 8 by decide) _ rfl rfl r c _ rfl).trans (piece_apply v0 v2 v4 0 0 rfl _ _ r c)
  | ⟨1, _⟩ => exact (cat_piece _ _ 1 (show _ < 8 by decide) _ rfl rfl r c _ rfl).trans (piece_apply v0 v2 v4 1 128 rfl _ _ r c)
  | ⟨2, _⟩ => exact (cat_piece _ _ 2 (show _ < 8 by decide) _ rfl rfl r c _ rfl).trans (piece_apply v0 v2 v4 2 256 rfl _ _ r c)
  | ⟨3, _⟩ => exact (cat_piece _ _ 3 (show _ < 8 by decide) _ rfl rfl r c _ rfl).trans (piece_apply v0 v2 v4 3 384 rfl _ _ r c)
  | ⟨4, _⟩ => exact (cat_piece _ _ 4 (show _ < 8 by decide) _ rfl rfl r c _ rfl).trans (piece_apply v0 v2 v4 4 512 rfl _ _ r c)
  | ⟨5, _⟩ => exact (cat_piece _ _ 5 (show _ < 8 by decide) _ rfl rfl r c _ rfl).trans (piece_apply v0 v2 v4 5 640 rfl _ _ r c)
  | ⟨6, _⟩ => exact (cat_piece _ _ 6 (show _ < 8 by decide) _ rfl rfl r c _ rfl).trans (piece_apply v0 v2 v4 6 768 rfl _ _ r c)
  | ⟨7, _⟩ => exact (cat_piece _ _ 7 (show _ < 8 by decide) _ rfl rfl r c _ rfl).trans (piece_apply v0 v2 v4 7 896 rfl _ _ r c)

end Pieces

section Epilogue

/-- The output projection's operand indices: output entry (r, f) and contraction position q read the attention rows at
    (r, q) and the weight at (f, q). -/
theorem lhs_proj_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_proj_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_proj_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_proj_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The output projection at one entry: the row of attention numbers against row f of the weight, summed over the
    1024 columns. -/
theorem proj_apply (a : FVec Ideal S256x1024 .bf16) (w : FVec Ideal S1024x1024 .bf16) (r : Fin 256) (f : Fin 1024) :
    matmul (F := Ideal) dot_S256x1024_S1024x1024_S256x1024_1_1_0_0_n_n none a w (constant S256x1024 .f32 0x00000000#32) (ix2 r f)
      = ∑ e : Fin 1024, a (ix2 r e) * w (ix2 f e) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 r f) ((ValueIdx.contrEquiv1 dot_S256x1024_S1024x1024_S256x1024_1_1_0_0_n_n 1024 rfl rfl).symm k) = ix2 r k := funext fun a => Fin.ext (by
    match a with
    | ⟨0, _⟩ => exact lhs_proj_0 _ _
    | ⟨1, _⟩ => exact (lhs_proj_1 _ _).trans hk)
  have er : dot_S256x1024_S1024x1024_S256x1024_1_1_0_0_n_n.rhsIdx (ix2 r f) ((ValueIdx.contrEquiv1 dot_S256x1024_S1024x1024_S256x1024_1_1_0_0_n_n 1024 rfl rfl).symm k) = ix2 f k := funext fun a => Fin.ext (by
    match a with
    | ⟨0, _⟩ => exact rhs_proj_0 _ _
    | ⟨1, _⟩ => exact (rhs_proj_1 _ _).trans hk)
  rw [el, er]

/-- The epilogue at one entry: the projected attention row plus the bias. -/
theorem epilogue_apply (att : FVec Ideal S256x1024 .f32) (v312 : Vec Ideal S1024x1024 .bf16) (v315 : Vec Ideal S1024 .f32) (r : Fin 256) (f : Fin 1024) :
    epilogue (F := Ideal) att v312 v315 (ix3 (0 : Fin 1) r f) = (∑ e : Fin 1024, att (ix2 r e) * v312 (ix2 f e)) + v315 (ix1 f) := by
  unfold epilogue
  rw [shapeCast_ab_1ab_apply, addf_apply, proj_apply, broadcastTo_1b_ab_apply, shapeCast_a_1a_apply, shapeCast_self]
  rfl

end Epilogue

/-- The stored value at row `r`, column `f`. -/
theorem body1_apply (v0 : Vec Ideal S1x256x1024 .bf16) (v2 v4 : Vec Ideal S1x2048x1024 .bf16) (v312 : Vec Ideal S1024x1024 .bf16) (v315 : Vec Ideal S1024 .f32)
    (r : Fin 256) (f : Fin 1024) :
    body1 (F := Ideal) v0 v2 v4 v312 v315 (ix3 (0 : Fin 1) r f)
      = Cert.Mha.outT (fun (s : Fin 256) (c : Fin 1024) => v0 (ix3 (0 : Fin 1) s c)) (fun (k : Fin 2048) (c : Fin 1024) => v2 (ix3 (0 : Fin 1) k c))
          (fun (k : Fin 2048) (c : Fin 1024) => v4 (ix3 (0 : Fin 1) k c)) v312 v315 r f := by
  rw [body1_eq, epilogue_apply]
  unfold Cert.Mha.outT
  refine congrArg (· + v315 (ix1 f)) (Finset.sum_congr rfl fun e _ => ?_)
  rw [heads_apply]

end Cert.KernelIdeal.Hand

end
-- ==== Proof.K1Value.lean ====
/-
  The second pallas_call's result array, at the extended reals: after its 32 grid points (4 batches × 8 tiles of
  256 query rows) the output array holds attention and the output projection of the projected tokens it was
  entered with — `Cert.Mha.attnOut` of the projected-token array, the output weights and the output bias.
-/
import proofs.«429547_j52226802319567_3_alg».proof.Proof.IdealRegion1
import proofs.«429547_j52226802319567_3_alg».proof.Proof.Spec
import proofs.«429547_j52226802319567_3_alg».proof.Proof.K1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## Zero offsets, however spelt -/

theorem zeroOffsets3 : (![0, 0, 0] : Fin 3 → Nat) = fun _ => 0 := funext fun a => by fin_cases a <;> rfl
theorem zeroOffsets2 : (![0, 0] : Fin 2 → Nat) = fun _ => 0 := funext fun a => by fin_cases a <;> rfl
theorem zeroOffsets1 : (![0] : Fin 1 → Nat) = fun _ => 0 := funext fun a => by fin_cases a <;> rfl

/-! ## One tile of 256 query rows -/

/-- Row `r` of tile `qi` among a batch's 2048 rows. -/
def attnTileRow (qi : Fin 8) (r : Fin 256) : Fin 2048 := ⟨qi.val * 256 + r.val, by omega⟩

/-- One entry of a tile's stored value, when the five loaded blocks are the tile's query rows, the batch's key
    and value rows, the output weights and the output bias: it is the whole function's entry at the tile's row.
    The tile's rows are computed as they would be among all 2048 rows of the batch. -/
theorem attn_tile_entry (A : Cert.Mha.Sp.Idx → EReal) (wo : Cert.Mha.Swo.Idx → EReal) (bo : Cert.Mha.Sbo.Idx → EReal)
    (x0 : Vec Ideal S1x256x1024 .bf16) (x1 x2 : Vec Ideal S1x2048x1024 .bf16) (x3 : Vec Ideal S1024x1024 .bf16) (x4 : Vec Ideal S1024 .f32)
    (b : Fin 4) (qi : Fin 8)
    (h0 : ∀ (s : Fin 256) (cc : Fin 1024), x0 (ix3 (0 : Fin 1) s cc) = A (ix3 b (attnTileRow qi s) (⟨cc.val, by omega⟩ : Fin 3072)))
    (h1 : ∀ (k : Fin 2048) (cc : Fin 1024), x1 (ix3 (0 : Fin 1) k cc) = A (ix3 b k (⟨1024 + cc.val, by omega⟩ : Fin 3072)))
    (h2 : ∀ (k : Fin 2048) (cc : Fin 1024), x2 (ix3 (0 : Fin 1) k cc) = A (ix3 b k (⟨2048 + cc.val, by omega⟩ : Fin 3072)))
    (h3 : x3 = wo) (h4 : x4 = bo) (r : Fin 256) (f : Fin 1024) :
    body1 (F := Ideal) x0 x1 x2 x3 x4 (ix3 (0 : Fin 1) r f) = Cert.Mha.attnOut A wo bo (ix3 b (attnTileRow qi r) f) := by
  rw [body1_apply, Cert.Mha.attnOut_ix3]
  subst h3 h4
  have e0 : (fun (s : Fin 256) (cc : Fin 1024) => x0 (ix3 (0 : Fin 1) s cc)) = fun s cc => Cert.Mha.qRows (fun b s f => A (ix3 b s f)) b (attnTileRow qi s) cc :=
    funext fun s => funext fun cc => h0 s cc
  have e1 : (fun (k : Fin 2048) (cc : Fin 1024) => x1 (ix3 (0 : Fin 1) k cc)) = Cert.Mha.kRows (fun b s f => A (ix3 b s f)) b :=
    funext fun k => funext fun cc => h1 k cc
  have e2 : (fun (k : Fin 2048) (cc : Fin 1024) => x2 (ix3 (0 : Fin 1) k cc)) = Cert.Mha.vRows (fun b s f => A (ix3 b s f)) b :=
    funext fun k => funext fun cc => h2 k cc
  rw [e0, e1, e2]
  exact Cert.Mha.outT_rows _ _ x3 x4 (attnTileRow qi) _ r f

/-! ## The grid: point `t` is batch `t / 8`, tile `t % 8` -/

theorem attn_point_lt (t : Fin cfg1.N) : t.val < 32 := lt_of_lt_of_eq t.isLt N_1

/-- The batch of a grid point. -/
def attnBatchOf (t : Fin cfg1.N) : Fin 4 := ⟨t.val / 8, by have := attn_point_lt t; omega⟩
/-- The tile of query rows of a grid point. -/
def attnTileOf (t : Fin cfg1.N) : Fin 8 := ⟨t.val % 8, by omega⟩

/-- The six printed index maps, decided over the 32 points: the query and output blocks sit at (batch, tile, 0), the
    key block at (batch, 0, 1), the value block at (batch, 0, 2), the weights and the bias at the origin. -/
theorem index_facts1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 1
    ∧ win1_2.index t (0 : Fin 3) = t.val / 8 ∧ win1_2.index t (1 : Fin 3) = 0 ∧ win1_2.index t (2 : Fin 3) = 2
    ∧ win1_3.index t (0 : Fin 2) = 0 ∧ win1_3.index t (1 : Fin 2) = 0
    ∧ win1_4.index t (0 : Fin 1) = 0
    ∧ win1_5.index t (0 : Fin 3) = t.val / 8 ∧ win1_5.index t (1 : Fin 3) = t.val % 8 ∧ win1_5.index t (2 : Fin 3) = 0 :=
  (by decide +kernel : ∀ t : Fin grid1.N, _)

/-! ## The five input blocks at a point, read off the arrays

A block's coordinate in its array is, on each axis, the block index times the block's size plus the coordinate
inside the block. -/

section
variable (V : (c : Dev nD) → (b : Ref sig .tc) → Buf (Elt Ideal) ((c : Thread nD τ).loc b)) (c : Dev nD) (t : Fin cfg1.N)

/-- The query block is rows `tile·256 …` of the batch, columns 0 … 1023 of the projected tokens. -/
theorem qblock_apply (s : Fin 256) (cc : Fin 1024) :
    iblk1 V c 0 t (ix3 (0 : Fin 1) s cc) = V c main_v4 (ix3 (attnBatchOf t) (attnTileRow (attnTileOf t) s) (⟨cc.val, by omega⟩ : Fin 3072)) := by
  show V c main_v4 (((cfg1.win 0).blk t).view.emb (ix3 (0 : Fin 1) s cc)) = V c main_v4 _
  refine congrArg _ ?_
  obtain ⟨e00, e01, e02, -⟩ := index_facts1 t
  funext a; apply Fin.ext
  match a with
  | ⟨0, _⟩ => show win1_0.index t (0 : Fin 3) * 1 + 1 * (0 : Fin 1).val = t.val / 8; rw [e00]; simp
  | ⟨1, _⟩ => show win1_0.index t (1 : Fin 3) * 256 + 1 * s.val = t.val % 8 * 256 + s.val; rw [e01]; omega
  | ⟨2, _⟩ => show win1_0.index t (2 : Fin 3) * 1024 + 1 * cc.val = cc.val; rw [e02]; omega

/-- The key block is all rows of the batch, columns 1024 … 2047. -/
theorem kblock_apply (k : Fin 2048) (cc : Fin 1024) :
    iblk1 V c 1 t (ix3 (0 : Fin 1) k cc) = V c main_v4 (ix3 (attnBatchOf t) k (⟨1024 + cc.val, by omega⟩ : Fin 3072)) := by
  show V c main_v4 (((cfg1.win 1).blk t).view.emb (ix3 (0 : Fin 1) k cc)) = V c main_v4 _
  refine congrArg _ ?_
  obtain ⟨-, -, -, e10, e11, e12, -⟩ := index_facts1 t
  funext a; apply Fin.ext
  match a with
  | ⟨0, _⟩ => show win1_1.index t (0 : Fin 3) * 1 + 1 * (0 : Fin 1).val = t.val / 8; rw [e10]; simp
  | ⟨1, _⟩ => show win1_1.index t (1 : Fin 3) * 2048 + 1 * k.val = k.val; rw [e11]; omega
  | ⟨2, _⟩ => show win1_1.index t (2 : Fin 3) * 1024 + 1 * cc.val = 1024 + cc.val; rw [e12]; omega

/-- The value block is all rows of the batch, columns 2048 … 3071. -/
theorem vblock_apply (k : Fin 2048) (cc : Fin 1024) :
    iblk1 V c 2 t (ix3 (0 : Fin 1) k cc) = V c main_v4 (ix3 (attnBatchOf t) k (⟨2048 + cc.val, by omega⟩ : Fin 3072)) := by
  show V c main_v4 (((cfg1.win 2).blk t).view.emb (ix3 (0 : Fin 1) k cc)) = V c main_v4 _
  refine congrArg _ ?_
  obtain ⟨-, -, -, -, -, -, e20, e21, e22, -⟩ := index_facts1 t
  funext a; apply Fin.ext
  match a with
  | ⟨0, _⟩ => show win1_2.index t (0 : Fin 3) * 1 + 1 * (0 : Fin 1).val = t.val / 8; rw [e20]; simp
  | ⟨1, _⟩ => show win1_2.index t (1 : Fin 3) * 2048 + 1 * k.val = k.val; rw [e21]; omega
  | ⟨2, _⟩ => show win1_2.index t (2 : Fin 3) * 1024 + 1 * cc.val = 2048 + cc.val; rw [e22]; omega

/-- The weights' block is the whole array of output weights. -/
theorem wblock_eq : iblk1 V c 3 t = V c main_v2 := by
  funext y
  show V c main_v2 (((cfg1.win 3).blk t).view.emb y) = V c main_v2 y
  refine congrArg _ ?_
  obtain ⟨-, -, -, -, -, -, -, -, -, e30, e31, -⟩ := index_facts1 t
  funext a; apply Fin.ext
  match a with
  | ⟨0, _⟩ => show win1_3.index t (0 : Fin 2) * 1024 + 1 * (y 0).val = (y 0).val; rw [e30]; omega
  | ⟨1, _⟩ => show win1_3.index t (1 : Fin 2) * 1024 + 1 * (y 1).val = (y 1).val; rw [e31]; omega

/-- The bias's block is the whole bias. -/
theorem bblock_eq : iblk1 V c 4 t = V c main_arg4 := by
  funext y
  show V c main_arg4 (((cfg1.win 4).blk t).view.emb y) = V c main_arg4 y
  refine congrArg _ ?_
  obtain ⟨-, -, -, -, -, -, -, -, -, -, -, e40, -⟩ := index_facts1 t
  funext a; apply Fin.ext
  match a with
  | ⟨0, _⟩ => show win1_4.index t (0 : Fin 1) * 1024 + 1 * (y 0).val = (y 0).val; rw [e40]; omega

/-- The output block's entry (0, r, f) sits at (batch, tile·256 + r, f) of the output array. -/
theorem oblock_emb (r : Fin 256) (f : Fin 1024) :
    ((cfg1.win 5).blk t).view.emb (ix3 (0 : Fin 1) r f) = ix3 (attnBatchOf t) (attnTileRow (attnTileOf t) r) f := by
  obtain ⟨-, -, -, -, -, -, -, -, -, -, -, -, e50, e51, e52⟩ := index_facts1 t
  funext a; apply Fin.ext
  match a with
  | ⟨0, _⟩ => show win1_5.index t (0 : Fin 3) * 1 + 1 * (0 : Fin 1).val = t.val / 8; rw [e50]; simp
  | ⟨1, _⟩ => show win1_5.index t (1 : Fin 3) * 256 + 1 * r.val = t.val % 8 * 256 + r.val; rw [e51]; omega
  | ⟨2, _⟩ => show win1_5.index t (2 : Fin 3) * 1024 + 1 * f.val = f.val; rw [e52]; omega

/-! ## What a point writes back, and the array after the last point -/

/-- What point `t` writes back is block `t` of attention-and-projection of the arrays as the region finds them. -/
theorem flushed1_5_eq :
    (dat1 (F := Ideal) V c).flushed 5 t = ((cfg1.win 5).blk t).view.read (Elt Ideal) (Cert.Mha.attnOut (V c main_v4) (V c main_v2) (V c main_arg4)) := by
  show (cfg1.win 5).cut (grid1.coords t) ((dat1 V c).after 5 t) = _
  rw [after1_5]
  unfold out1_5
  rw [View.canon_unit_zero zeroOffsets3]
  simp only [View.ld_unit_zero (S := S1x256x1024) zeroOffsets3, View.ld_unit_zero (S := S1x2048x1024) zeroOffsets3, View.ld_unit_zero (S := S1024x1024) zeroOffsets2, View.ld_unit_zero (S := S1024) zeroOffsets1]
  funext j
  obtain ⟨r, f, rfl⟩ : ∃ (r : Fin 256) (f : Fin 1024), j = ix3 (0 : Fin 1) r f :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  show body1 (iblk1 V c 0 t) (iblk1 V c 1 t) (iblk1 V c 2 t) (iblk1 V c 3 t) (iblk1 V c 4 t) (ix3 (0 : Fin 1) r f)
    = Cert.Mha.attnOut (V c main_v4) (V c main_v2) (V c main_arg4) (((cfg1.win 5).blk t).view.emb (ix3 (0 : Fin 1) r f))
  rw [oblock_emb t r f]
  exact attn_tile_entry (V c main_v4) (V c main_v2) (V c main_arg4) _ _ _ _ _ (attnBatchOf t) (attnTileOf t)
    (qblock_apply V c t) (kblock_apply V c t) (vblock_apply V c t) (wblock_eq V c t) (bblock_eq V c t) r f

end

/-! ## The 32 blocks tile the output array -/

/-- An index of the output array is in point `t`'s block iff each coordinate is in the block's range on its axis. -/
theorem mem_oblock (t : Fin cfg1.N) (i : S4x2048x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v5).slice (win1_5.rect t)).set ↔ _
  rw [View.set_slice_whole, Rect.mem_set_unit]
  exact Iff.rfl

/-- Entry (b, s, f) of the output array is in the block of point b·8 + s / 256, which is written back. -/
theorem covered1_5 (i : S4x2048x1024.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  have hN : (i 0).val * 8 + (i 1).val / 256 < cfg1.N := lt_of_lt_of_eq (b := 32) (by omega) N_1.symm
  refine ⟨⟨(i 0).val * 8 + (i 1).val / 256, hN⟩, flush1_5 _, ?_⟩
  rw [mem_oblock]
  obtain ⟨-, -, -, -, -, -, -, -, -, -, -, -, e50, e51, e52⟩ := index_facts1 ⟨(i 0).val * 8 + (i 1).val / 256, hN⟩
  have e50' : win1_5.index ⟨(i 0).val * 8 + (i 1).val / 256, hN⟩ (0 : Fin 3) = ((i 0).val * 8 + (i 1).val / 256) / 8 := e50
  have e51' : win1_5.index ⟨(i 0).val * 8 + (i 1).val / 256, hN⟩ (1 : Fin 3) = ((i 0).val * 8 + (i 1).val / 256) % 8 := e51
  intro a
  match a with
  | ⟨0, _⟩ => show win1_5.index _ (0 : Fin 3) * 1 ≤ (i 0).val ∧ (i 0).val < win1_5.index _ (0 : Fin 3) * 1 + 1; rw [e50']; omega
  | ⟨1, _⟩ => show win1_5.index _ (1 : Fin 3) * 256 ≤ (i 1).val ∧ (i 1).val < win1_5.index _ (1 : Fin 3) * 256 + 256; rw [e51']; omega
  | ⟨2, _⟩ => show win1_5.index _ (2 : Fin 3) * 1024 ≤ (i 2).val ∧ (i 2).val < win1_5.index _ (2 : Fin 3) * 1024 + 1024; rw [e52]; omega

/-- The attention kernel's output array after the last grid point. -/
theorem final1 (V : (c : Dev nD) → (b : Ref sig .tc) → Buf (Elt Ideal) ((c : Thread nD τ).loc b)) (c : Dev nD) :
    (dat1 (F := Ideal) V c).arrAt 5 cfg1.N = Cert.Mha.attnOut (V c main_v4) (V c main_v2) (V c main_arg4) :=
  (dat1 (F := Ideal) V c).arrAt_eq_of_cover 5 (Cert.Mha.attnOut (V c main_v4) (V c main_v2) (V c main_arg4))
    (fun t _ => flushed1_5_eq V c t) covered1_5

end Cert.KernelIdeal.Hand

end
-- ==== Proof.K0Value.lean ====
/-
  The first pallas_call's result array, at the extended reals: after its sixteen grid points the output array
  holds, at row i and column f, the inner product of token row i with weight row f plus bias f — the projected
  tokens over the flat list of 8192 rows — as one function of the arrays the region was entered with.
-/
import proofs.«429547_j52226802319567_3_alg».proof.Proof.IdealRegion0
import proofs.«429547_j52226802319567_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## One entry of a block's product -/

theorem lhs_qkv_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lhs_qkv_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem rhs_qkv_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem rhs_qkv_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

/-- The product of a block of 512 token rows with the weights, read at (p, q): row p against weight row q. -/
theorem matmul_at (a : FVec Ideal S512x1024 .bf16) (w : FVec Ideal S3072x1024 .bf16) (p : Fin 512) (q : Fin 3072) :
    matmul dot_S512x1024_S3072x1024_S512x3072_1_1_0_0_n_n none a w (constant (F := Ideal) S512x3072 .f32 0x00000000#32) (ix2 p q)
      = ∑ k : Fin 1024, a (ix2 p k) * w (ix2 q k) := by
  simp only [matmul]
  rw [Ideal.matmul_constant_zero_apply, ← Equiv.sum_comp (ValueIdx.contrEquiv1 dot_S512x1024_S3072x1024_S512x3072_1_1_0_0_n_n 1024 rfl rfl).symm]
  refine Finset.sum_congr rfl fun k _ => ?_
  have hk := ValueIdx.contrEquiv1_symm_val dot_S512x1024_S3072x1024_S512x3072_1_1_0_0_n_n 1024 rfl rfl k
  have el : dot_S512x1024_S3072x1024_S512x3072_1_1_0_0_n_n.lhsIdx (ix2 p q) ((ValueIdx.contrEquiv1 dot_S512x1024_S3072x1024_S512x3072_1_1_0_0_n_n 1024 rfl rfl).symm k) = ix2 p k := funext fun a => Fin.ext (by
    match a with
    | ⟨0, _⟩ => exact lhs_qkv_0 _ _
    | ⟨1, _⟩ => exact (lhs_qkv_1 _ _).trans hk)
  have er : dot_S512x1024_S3072x1024_S512x3072_1_1_0_0_n_n.rhsIdx (ix2 p q) ((ValueIdx.contrEquiv1 dot_S512x1024_S3072x1024_S512x3072_1_1_0_0_n_n 1024 rfl rfl).symm k) = ix2 q k := funext fun a => Fin.ext (by
    match a with
    | ⟨0, _⟩ => exact rhs_qkv_0 _ _
    | ⟨1, _⟩ => exact (rhs_qkv_1 _ _).trans hk)
  rw [el, er]

/-- The body's stored value at (p, q): token row p of the block against weight row q, plus bias q. -/
theorem pay_at (v0 : Vec Ideal S512x1024 .f32) (v3 : Vec Ideal S3072x1024 .bf16) (v6 : Vec Ideal S3072 .f32) (p : Fin 512) (q : Fin 3072) :
    k0_pay1 (F := Ideal) v0 v3 v6 (ix2 p q) = (∑ k : Fin 1024, (v0 (ix2 p k) : EReal) * (v3 (ix2 q k) : EReal)) + (v6 (ix1 q) : EReal) := by
  unfold k0_pay1
  simp only [truncf_apply, addf_apply, shapeCast_self]
  rw [matmul_at, broadcastTo_1b_ab_apply, shapeCast_a_1a_apply]
  rfl

/-! ## Where the blocks sit in their arrays -/

theorem hz2 : (![0, 0] : Fin 2 → Nat) = fun _ => 0 := funext fun a => by fin_cases a <;> rfl
theorem hz1 : (![0] : Fin 1 → Nat) = fun _ => 0 := funext fun a => by fin_cases a; rfl

/-- The index maps over the grid: at point `t` the token block and the output block are the `t`-th blocks of 512 rows,
    the weights and the bias are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b)) (c : Dev nD)

/-- The token block at point `t` is rows `512 t … 512 t + 511` of the token array. -/
theorem tokens_block (t : Fin cfg0.N) (x : S512x1024.Idx) (k : S8192x1024.Idx)
    (hk0 : (k 0).val = t.val * 512 + (x 0).val) (hk1 : (k 1).val = (x 1).val) :
    (iblk0 V c 0 t : Vec Ideal S512x1024 .f32) x = (V c main_v0 : S8192x1024.Idx → EReal) k := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 1024 + 1 * (x 1).val = (k 1).val; rw [e1, hk1]; omega

/-- The weight block at every point is the whole weight array. -/
theorem weights_block (t : Fin cfg0.N) (x : S3072x1024.Idx) :
    (iblk0 V c 1 t : Vec Ideal S3072x1024 .bf16) x = (V c main_v1 : S3072x1024.Idx → EReal) x := by
  obtain ⟨-, -, e0, e1, -⟩ := idx_facts t
  unfold iblk0
  rw [View.read_apply]
  show V c main_v1 _ = V c main_v1 _
  congr 1
  funext a
  apply Fin.ext
  match a with
  | ⟨0, _⟩ => show win0_1.index t (0 : Fin 2) * 3072 + 1 * (x 0).val = (x 0).val; rw [e0]; omega
  | ⟨1, _⟩ => show win0_1.index t (1 : Fin 2) * 1024 + 1 * (x 1).val = (x 1).val; rw [e1]; omega

/-- The bias block at every point is the whole bias. -/
theorem bias_block (t : Fin cfg0.N) (x : S3072.Idx) :
    (iblk0 V c 2 t : Vec Ideal S3072 .f32) x = (V c main_arg2 : S3072.Idx → EReal) x := by
  obtain ⟨-, -, -, -, e0, -⟩ := idx_facts t
  unfold iblk0
  rw [View.read_apply]
  show V c main_arg2 _ = V c main_arg2 _
  congr 1
  funext a
  apply Fin.ext
  match a with
  | ⟨0, _⟩ => show win0_2.index t (0 : Fin 1) * 3072 + 1 * (x 0).val = (x 0).val; rw [e0]; omega

end

/-! ## What a point writes back, the cover, and the array after the last point -/

section
variable (V : (c : Dev nD) → (b : Ref sig .tc) → Buf (Elt Ideal) ((c : Thread nD τ).loc b)) (c : Dev nD)

/-- Entry `y` of what the body stores at point `t` is the projected token at the array index the output block puts
    `y` at: row `512 t + y₀`, column `y₁`. -/
theorem block_entry (t : Fin cfg0.N) (y : S512x3072.Idx) (i : S8192x3072.Idx)
    (hi0 : (i 0).val = t.val * 512 + (y 0).val) (hi1 : (i 1).val = (y 1).val) :
    k0_pay1 (F := Ideal) (iblk0 V c 0 t) (iblk0 V c 1 t) (iblk0 V c 2 t) y
      = Cert.Mha.projFlat (V c main_v0) (V c main_v1) (V c main_arg2) i := by
  obtain ⟨p, q, rfl⟩ : ∃ (p : Fin 512) (q : Fin 3072), y = ix2 p q := ⟨y 0, y 1, eq_ix2 y⟩
  rw [pay_at]
  unfold Cert.Mha.projFlat
  refine congrArg₂ (· + ·) (Finset.sum_congr rfl fun k _ => congrArg₂ (· * ·) ?_ ?_) ?_
  · exact tokens_block V c t (ix2 p k) _ hi0 rfl
  · refine (weights_block V c t (ix2 q k)).trans (congrArg _ ?_)
    funext a; apply Fin.ext
    match a with
    | ⟨0, _⟩ => exact hi1.symm
    | ⟨1, _⟩ => rfl
  · refine (bias_block V c t (ix1 q)).trans (congrArg _ ?_)
    funext a; apply Fin.ext
    match a with
    | ⟨0, _⟩ => exact hi1.symm

/-- What point `t` writes back is block `t` of the projected tokens. -/
theorem flushed_eq (t : Fin cfg0.N) :
    (dat0 (F := Ideal) V c).flushed 3 t
      = ((cfg0.win 3).blk t).view.read (Elt Ideal) (Cert.Mha.projFlat (V c main_v0) (V c main_v1) (V c main_arg2)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S3072x1024) hz2, View.ld_unit_zero (S := S3072) hz1]
  obtain ⟨-, -, -, -, -, e0, e1⟩ := idx_facts t
  funext j
  refine block_entry V c t j (((cfg0.win 3).blk t).view.emb j) ?_ ?_
  · show win0_3.index t (0 : Fin 2) * 512 + 1 * (j 0).val = t.val * 512 + (j 0).val; rw [e0]; omega
  · show win0_3.index t (1 : Fin 2) * 3072 + 1 * (j 1).val = (j 1).val; rw [e1]; omega

/-- An index of the output array is in point `t`'s block iff each coordinate is in the block's range on its axis. -/
theorem mem_blk (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v3).slice (win0_3.rect t)).set ↔ _
  rw [View.set_slice_whole, Rect.mem_set_unit]
  exact Iff.rfl

/-- Row `r` of the output array is covered by point `r / 512`. -/
theorem covered (i : S8192x3072.Idx) : ∃ t : Fin cfg0.N, (cfg0.win 3).flush t = true ∧ i ∈ ((cfg0.win 3).blk t).view.set := by
  have hN : cfg0.N = 16 := N_0
  have hi0 : (i 0).val < 8192 := (i 0).isLt
  have hi1 : (i 1).val < 3072 := (i 1).isLt
  refine ⟨⟨(i 0).val / 512, by omega⟩, flush0_3 _, ?_⟩
  obtain ⟨-, -, -, -, -, e0, e1⟩ := idx_facts ⟨(i 0).val / 512, by omega⟩
  rw [mem_blk]
  intro a
  match a with
  | ⟨0, _⟩ =>
    show win0_3.index ⟨(i 0).val / 512, _⟩ (0 : Fin 2) * 512 ≤ (i 0).val ∧ (i 0).val < win0_3.index ⟨(i 0).val / 512, _⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, _⟩ (1 : Fin 2) * 3072 ≤ (i 1).val ∧ (i 1).val < win0_3.index ⟨(i 0).val / 512, _⟩ (1 : Fin 2) * 3072 + 3072
    rw [e1]; omega

end

/-- The projection's output array after the last grid point. -/
theorem final0 (V : (c : Dev nD) → (b : Ref sig .tc) → Buf (Elt Ideal) ((c : Thread nD τ).loc b)) (c : Dev nD) :
    (dat0 (F := Ideal) V c).arrAt 3 cfg0.N = Cert.Mha.projFlat (V c main_v0) (V c main_v1) (V c main_arg2) :=
  (dat0 (F := Ideal) V c).arrAt_eq_of_cover 3 (Cert.Mha.projFlat (V c main_v0) (V c main_v1) (V c main_arg2))
    (fun t _ => flushed_eq V c t) covered

end Cert.KernelIdeal.Hand

end
-- ==== Proof.KTokens.lean ====
/-
  What the attention region is entered with, as functions of the program's five arguments at the extended reals:
  the projected tokens the projection region left (its 8192 flat rows reshaped to 4 batches of 2048 rows), the output
  weights and the output bias — the host operations around the kernels only reshape and change float formats, which
  is the identity here — and hence attention of those entry contents IS the specification function of the arguments.
-/
import proofs.«429547_j52226802319567_3_alg».proof.Proof.IdealRun
import proofs.«429547_j52226802319567_3_alg».proof.Proof.K0Value
import proofs.«429547_j52226802319567_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The reshapes read at an index -/

/-- The projected tokens over the flat rows, with the flat rows themselves a regrouping of the (batch, row) tokens,
    regrouped back into batches: entry (b, s, f) is the projection of token (b, s) at column f. -/
theorem projFlat_regrouped (x : S4x2048x1024.Idx → EReal) (w : S3072x1024.Idx → EReal) (bq : S3072.Idx → EReal)
    (h1 : S4x2048x1024.ShapeCasts S8192x1024) (h2 : S8192x3072.ShapeCasts S4x2048x3072) (b : Fin 4) (s : Fin 2048) (f : Fin 3072) :
    shapeCast S4x2048x3072 (Cert.Mha.projFlat (shapeCast S8192x1024 x h1) w bq) h2 (ix3 b s f) = Cert.Mha.proj x w bq b s f := by
  have hb := b.isLt; have hs := s.isLt
  rw [shapeCast_apply _ h2 (ix3 b s f) (ix2 (⟨b.val * 2048 + s.val, by omega⟩ : Fin 8192) f)
    (by rw [Shape.rowMajor_val_two, Shape.rowMajor_val_three]; rfl)]
  unfold Cert.Mha.projFlat Cert.Mha.proj
  refine congrArg₂ (· + ·) (Finset.sum_congr rfl fun e _ => congrArg₂ (· * ·) ?_ rfl) rfl
  exact shapeCast_apply x h1 _ (ix3 b s e) (by rw [Shape.rowMajor_val_two, Shape.rowMajor_val_three]; rfl)

/-! ## The entry contents through the host stretches -/

section
variable (m : (ℓ : Loc nD τ sig) → Buf (Elt Ideal) ℓ) (ρ : Dev nD → PrngReg) (c : Dev nD)

/-- The attention region's token array is the projection region's output array, its 8192 flat rows regrouped
    into 4 batches of 2048. -/
theorem entry_tokens_regrouped : (V3 m ρ c main_v4 : S4x2048x3072.Idx → EReal)
    = shapeCast S4x2048x3072 (W2 m ρ c (Proc.devRef .tc main_v3) : S8192x3072.Idx → EReal) shapeCasts_S8192x3072_S4x2048x3072 := by
  dsimp only [V3, W3, hostOps1]; after_results; rfl

/-- The projection region's output array at its exit is what its write-backs fold to. -/
theorem exit_projection : (W2 m ρ c (Proc.devRef .tc main_v3) : S8192x3072.Idx → EReal) = (dat0 (V1 m ρ) c).arrAt 3 cfg0.N :=
  W2_arr m ρ c 3

/-- The projection region's token rows are the first argument's tokens as one flat list of 8192 rows. -/
theorem entry_rows : (V1 m ρ c main_v0 : S8192x1024.Idx → EReal)
    = shapeCast S8192x1024 (m ((c : Thread nD τ).loc main_arg0) : S4x2048x1024.Idx → EReal) shapeCasts_S4x2048x1024_S8192x1024 := by
  dsimp only [V1, W1, hostOps0]; after_results; rfl

/-- The projection weights the region reads are the second argument: the change of float format is the identity on
    the extended reals. -/
theorem entry_weights : (V1 m ρ c main_v1 : S3072x1024.Idx → EReal) = (m ((c : Thread nD τ).loc main_arg1) : S3072x1024.Idx → EReal) := by
  dsimp only [V1, W1, hostOps0]; after_results; rfl

/-- The projection bias is the third argument, untouched. -/
theorem entry_bias : (V1 m ρ c main_arg2 : S3072.Idx → EReal) = (m ((c : Thread nD τ).loc main_arg2) : S3072.Idx → EReal) :=
  StableHlo.after_of_writes_sub hostOps0 _ hostOps0_writes (by decide)

/-- The output weights the attention region reads are the fourth argument: written before the projection region as a
    change of float format, kept by that region and by the regrouping after it. -/
theorem entry_outWeights : (V3 m ρ c main_v2 : S1024x1024.Idx → EReal) = (m ((c : Thread nD τ).loc main_arg3) : S1024x1024.Idx → EReal) :=
  calc (V3 m ρ c main_v2 : S1024x1024.Idx → EReal)
    _ = W2 m ρ c (Proc.devRef .tc main_v2) := StableHlo.after_of_writes_sub hostOps1 _ hostOps1_writes (by decide)
    _ = W1 m ρ c (Proc.devRef .tc main_v2) := W2_keeps m ρ c main_v2 (by decide)
    _ = (m ((c : Thread nD τ).loc main_arg3) : S1024x1024.Idx → EReal) := by
        dsimp only [W1, hostOps0]; after_results; rfl

/-- The output bias is the fifth argument, untouched. -/
theorem entry_outBias : (V3 m ρ c main_arg4 : S1024.Idx → EReal) = (m ((c : Thread nD τ).loc main_arg4) : S1024.Idx → EReal) :=
  calc (V3 m ρ c main_arg4 : S1024.Idx → EReal)
    _ = W2 m ρ c (Proc.devRef .tc main_arg4) := StableHlo.after_of_writes_sub hostOps1 _ hostOps1_writes (by decide)
    _ = W1 m ρ c (Proc.devRef .tc main_arg4) := W2_keeps m ρ c main_arg4 (by decide)
    _ = W0 m ρ c (Proc.devRef .tc main_arg4) := StableHlo.after_of_writes_sub hostOps0 _ hostOps0_writes (by decide)
    _ = m ((c : Thread nD τ).loc main_arg4) := rfl

/-- The attention region's token array, entry by entry, is the fused projection of the arguments' tokens. -/
theorem entry_tokens : (V3 m ρ c main_v4 : S4x2048x3072.Idx → EReal)
    = fun j => Cert.Mha.proj (m ((c : Thread nD τ).loc main_arg0)) (m ((c : Thread nD τ).loc main_arg1)) (m ((c : Thread nD τ).loc main_arg2)) (j 0) (j 1) (j 2) := by
  rw [entry_tokens_regrouped, exit_projection, final0, entry_rows, entry_weights, entry_bias]
  funext j
  obtain ⟨b, s, f, rfl⟩ : ∃ (b : Fin 4) (s : Fin 2048) (f : Fin 3072), j = ix3 b s f := ⟨j 0, j 1, j 2, eq_ix3 j⟩
  exact projFlat_regrouped _ _ _ _ _ b s f

end

/-- Attention and the output projection of the attention region's entry contents is the specification function of
    the launch contents. -/
theorem attn_of_launch (m : (ℓ : Loc nD τ sig) → Buf (Elt Ideal) ℓ) (ρ : Dev nD → PrngReg) (c : Dev nD) :
    Cert.Mha.attnOut (V3 m ρ c main_v4) (V3 m ρ c main_v2) (V3 m ρ c main_arg4)
      = Cert.Mha.G (m ((c : Thread nD τ).loc main_arg0)) (m ((c : Thread nD τ).loc main_arg1)) (m ((c : Thread nD τ).loc main_arg2))
          (m ((c : Thread nD τ).loc main_arg3)) (m ((c : Thread nD τ).loc main_arg4)) := by
  rw [Cert.Mha.G_eq_attnOut]
  exact congr (congr (congrArg Cert.Mha.attnOut (entry_tokens m ρ c)) (entry_outWeights m ρ c)) (entry_outBias m ρ c)

end Cert.KernelIdeal.Hand

end
-- ==== Proof.lean ====
/-
  A multi-head self-attention layer — fused query/key/value projection, sixteen heads of scaled dot-product
  attention with a softmax over 2048 keys, output projection — computed by two Pallas kernels (the projection over
  512-row blocks of the 8192 tokens; attention and the output projection fused, per batch and per tile of 256 query
  rows, all heads unrolled) against the plain jnp formulation, equal over the extended reals.

  Both programs compute, entry by entry, the function `Cert.Mha.G` of the five argument arrays (Proof/Spec.lean):
  the reference because each of its host operations reads at an index as the corresponding clause of `G`
  (Proof/RefIsSpec.lean, over the generated run of the reference); the kernel program because the projection
  region leaves the projected tokens in its output array (Proof/K0Value.lean), the reshape between the kernels
  only re-indexes them (Proof/KTokens.lean), and the attention region's output array is attention and the output
  projection of the projected tokens it is entered with (Proof/K1Value.lean, over the body's value at an entry,
  Proof/K1Pay.lean and Proof/HeadValue.lean).  A change of float format is the identity at this instance, a matrix
  product on the matrix unit and the host's contraction are the same sum, and a sum or a maximum over a row does not
  depend on the order it is taken in; no law used needs the inputs finite, so the precondition is not opened.
  The frames (every execution terminates, faults nowhere, leaves the arguments unchanged) of the two kernel
  programs are the run of their four segments (Proof/IdealRun.lean, Proof/BitsRun.lean, over the two regions'
  body obligations); the reference's frame is its generated run with the result dropped.  The ideal pass rewrote no
  operation, so there is nothing to preserve.
-/
import proofs.«429547_j52226802319567_3_alg».proof.Defs
import proofs.«429547_j52226802319567_3_alg».proof.Proof.Gen.Kernel
import proofs.«429547_j52226802319567_3_alg».proof.Proof.Gen.KernelIdeal
import proofs.«429547_j52226802319567_3_alg».proof.Proof.Gen.ReferenceIdeal
import proofs.«429547_j52226802319567_3_alg».proof.Proof.Gen.Pre_finite_inputs
import proofs.«429547_j52226802319567_3_alg».proof.Proof.Gen.ReferenceIdeal.Run
import proofs.«429547_j52226802319567_3_alg».proof.Proof.Gen.ReferenceIdeal.Read
import proofs.«429547_j52226802319567_3_alg».proof.Proof.BitsRun
import proofs.«429547_j52226802319567_3_alg».proof.Proof.IdealRun
import proofs.«429547_j52226802319567_3_alg».proof.Proof.RefIsSpec
import proofs.«429547_j52226802319567_3_alg».proof.Proof.K1Value
import proofs.«429547_j52226802319567_3_alg».proof.Proof.KTokens
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program ends with its result array at `G` of its arguments, and the reference with its result at
    `G` of arguments that agree with them. -/
theorem algebraic : Cert.algebraic_KernelIdeal_ReferenceIdeal := by
  intro m ρ m' ρ' _ hagree
  refine ⟨fun c => Cert.Mha.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans ((Cert.KernelIdeal.Hand.final1 (Cert.KernelIdeal.Hand.V3 m ρ) c).trans
          (Cert.KernelIdeal.Hand.attn_of_launch m ρ c)), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, Cert.ReferenceIdeal.RefValue.ref_is_spec,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
